-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x272x1024 : Shape := ⟨3, ![128, 272, 1024]⟩
abbrev S128 : Shape := ⟨1, ![128]⟩
abbrev S16x272x272 : Shape := ⟨3, ![16, 272, 272]⟩
abbrev S_ : Shape := ⟨0, ![]⟩

class Facts : Prop where
  bcast_S_S128x272x1024 : S_.BroadcastsInDim S128x272x1024 (![] : Fin 0 → Fin S128x272x1024.rank)
  reducesTo_S128x272x1024_S_d0_1_2 : S128x272x1024.ReducesTo [0, 1, 2] S_
  h_S_ : 0 < S_.numel
  bcast_S_S16x272x272 : S_.BroadcastsInDim S16x272x272 (![] : Fin 0 → Fin S16x272x272.rank)
  reducesTo_S16x272x272_S_d0_1_2 : S16x272x272.ReducesTo [0, 1, 2] S_
  bcast_S_S128 : S_.BroadcastsInDim S128 (![] : Fin 0 → Fin S128.rank)
  reducesTo_S128_S_d0 : S128.ReducesTo [0] S_

variable [Facts]

def fn {F : FTy → Type} [FloatOps F] (main_arg0 : FVec F S128x272x1024 .f32) (main_arg1 : IVec S128 32) (main_arg2 : FVec F S16x272x272 .f32) : IVec S_ 1 :=
  let main_v0 : FVec F S128x272x1024 .f32 := Host.absf main_arg0
  let main_cst : FVec F S_ .f32 := constant S_ .f32 0x7F800000#32
  let main_v1 : FVec F S128x272x1024 .f32 := broadcastInDim S128x272x1024 ![] bcast_S_S128x272x1024 main_cst
  let main_v2 : IVec S128x272x1024 1 := cmpf .olt main_v0 main_v1
  let main_c : IVec S_ 1 := constantI S_ 1 1#1
  let main_v3 : IVec S_ 1 := (fun x v => Host.reduce IntOp.andi x v reducesTo_S128x272x1024_S_d0_1_2 h_S_) main_v2 main_c
  let main_v4 : FVec F S16x272x272 .f32 := Host.absf main_arg2
  let main_cst_0 : FVec F S_ .f32 := constant S_ .f32 0x7F800000#32
  let main_v5 : FVec F S16x272x272 .f32 := broadcastInDim S16x272x272 ![] bcast_S_S16x272x272 main_cst_0
  let main_v6 : IVec S16x272x272 1 := cmpf .olt main_v4 main_v5
  let main_c_1 : IVec S_ 1 := constantI S_ 1 1#1
  let main_v7 : IVec S_ 1 := (fun x v => Host.reduce IntOp.andi x v reducesTo_S16x272x272_S_d0_1_2 h_S_) main_v6 main_c_1
  let main_v8 : IVec S_ 1 := andi main_v3 main_v7
  let main_c_2 : IVec S_ 32 := constantI S_ 32 0#32
  let main_v9 : IVec S128 32 := broadcastInDim S128 ![] bcast_S_S128 main_c_2
  let main_v10 : IVec S128 1 := cmpi .sge main_arg1 main_v9
  let main_c_3 : IVec S_ 1 := constantI S_ 1 1#1
  let main_v11 : IVec S_ 1 := (fun x v => Host.reduce IntOp.andi x v reducesTo_S128_S_d0 h_S_) main_v10 main_c_3
  let main_v12 : IVec S_ 1 := andi main_v8 main_v11
  main_v12
-- ==== Kernel.lean ====
abbrev S128x272x1024 : Shape := ⟨3, ![128, 272, 1024]⟩
abbrev S128 : Shape := ⟨1, ![128]⟩
abbrev S16x272x272 : Shape := ⟨3, ![16, 272, 272]⟩
abbrev S_ : Shape := ⟨0, ![]⟩
abbrev S8x272x1024 : Shape := ⟨3, ![8, 272, 1024]⟩
abbrev S1 : Shape := ⟨1, ![1]⟩
abbrev S1x272x272 : Shape := ⟨3, ![1, 272, 272]⟩
abbrev S272x272 : Shape := ⟨2, ![272, 272]⟩
abbrev S1x272x1024 : Shape := ⟨3, ![1, 272, 1024]⟩
abbrev S272x1024 : Shape := ⟨2, ![272, 1024]⟩

abbrev nBuf : Space → Nat
  | .hbm => 12
  | .vmem => 5
  | .smem => 1
  | _ => 0

abbrev bufTy : (tb : Table) → Fin (tcTables nBuf tb) → BufTy
  | .hbm, ⟨0, _⟩ => ⟨S128x272x1024, .f32⟩
  | .hbm, ⟨1, _⟩ => ⟨S128, .i32⟩
  | .hbm, ⟨2, _⟩ => ⟨S16x272x272, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S16x272x272, .bf16⟩
  | .hbm, ⟨11, _⟩ => ⟨S128x272x1024, .f32⟩
  | .local _ .vmem, ⟨0, _⟩ => ⟨S8x272x1024, .f32⟩
  | .local _ .vmem, ⟨1, _⟩ => ⟨S8x272x1024, .f32⟩
  | .local _ .vmem, ⟨2, _⟩ => ⟨S16x272x272, .bf16⟩
  | .local _ .vmem, ⟨3, _⟩ => ⟨S8x272x1024, .f32⟩
  | .local _ .vmem, ⟨4, _⟩ => ⟨S8x272x1024, .f32⟩
  | .local _ .smem, ⟨0, _⟩ => ⟨S128, .i32⟩
  | _, _ => ⟨S128x272x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (i : grid0.Coords) (k0_t1 : Fin k0_t1_loop.trips) : Fin 1 → Nat :=
  let arg0 : BitVec 32 := BitVec.ofNat 32 (i 0).val
  let c8_i32_1 : BitVec 32 := 8#32
  let v1 : BitVec 32 := Scalar.muli arg0 c8_i32_1
  let c0_i32 : BitVec 32 := 0#32
  let c1_i32 : BitVec 32 := 1#32
  let arg5 : BitVec 32 := Scf.iv c0_i32 c1_i32 k0_t1
  let v2 : BitVec 32 := Scalar.addi v1 arg5
  let v3 : Index := Scalar.indexCast v2
  ![v3.toNat]
def k0_off2 (v4 : BitVec 32) : Fin 3 → Nat :=
  let v5 : Index := Scalar.indexCast v4
  let c0 : Index := 0#32
  let c0_2 : Index := 0#32
  ![v5.toNat, 0, 0]

def k0_chk1 (v4 : BitVec 32) : Prop :=
  (∀ a, (k0_off2 v4) a + S1x272x272.size a ≤ S16x272x272.size a)
instance k0_chk1.dec : ∀ (v4 : BitVec 32), Decidable (k0_chk1 v4) := fun v4 => decidable_of_iff' _ (Iff.of_eq (k0_chk1.eq_1 v4))
theorem k0_off2_inb : ∀ (v4 : BitVec 32) (k0_hw1 : k0_chk1 v4), ∀ a, (k0_off2 v4) a + S1x272x272.size a ≤ S16x272x272.size a := fun v4 k0_hw1 => k0_hw1

def k0_off3 (k0_t1 : Fin k0_t1_loop.trips) : Fin 3 → Nat :=
  let c0_i32 : BitVec 32 := 0#32
  let c1_i32 : BitVec 32 := 1#32
  let arg5 : BitVec 32 := Scf.iv c0_i32 c1_i32 k0_t1
  let v8 : Index := Scalar.indexCast arg5
  let c0_3 : Index := 0#32
  let c0_4 : Index := 0#32
  ![v8.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x272x272 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S128 : S_.BroadcastsInDim S128 (![] : Fin 0 → Fin S128.rank)
  bitsLt_bf16_f32 : FTy.bits .bf16 < FTy.bits .f32
  numel1_S1 : S1.numel = 1
  h_S1x272x272 : 0 < S1x272x272.numel
  shapeCasts_S1x272x272_S272x272 : S1x272x272.ShapeCasts S272x272
  h_S1x272x1024 : 0 < S1x272x1024.numel
  shapeCasts_S1x272x1024_S272x1024 : S1x272x1024.ShapeCasts S272x1024
  shapeCasts_S272x1024_S1x272x1024 : S272x1024.ShapeCasts S1x272x1024
  dot_S272x272_S272x1024_S272x1024_1_0_0_1_n_n_wf : DotDims.WF S272x272 S272x1024 S272x1024 [1] [0] [0] [1] [] []
  hrank0 : 0 < grid0.rank
  k0_t1_ok : k0_t1_loop.OK
  k0_off1_inb : ∀ (i : grid0.Coords) (k0_t1 : Fin k0_t1_loop.trips), ∀ a, (k0_off1 i k0_t1) a + S1.size a ≤ S128.size a
  k0_off3_inb : ∀ k0_t1 : Fin k0_t1_loop.trips, ∀ a, (k0_off3 k0_t1) a + S1x272x1024.size a ≤ S8x272x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x272x1024.size a ≤ S128x272x1024.size a
  hwx0_0 : ∀ i : grid0.Coords, EltTy.bits .f32 = 32 ∨ (Rect.block (s := S128x272x1024) S8x272x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x272x272.size a ≤ S16x272x272.size a
  hwx0_1 : ∀ i : grid0.Coords, EltTy.bits .bf16 = 32 ∨ (Rect.block (s := S16x272x272) S16x272x272.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x272x1024.size a ≤ S128x272x1024.size a
  hwx0_2 : ∀ i : grid0.Coords, EltTy.bits .f32 = 32 ∨ (Rect.block (s := S128x272x1024) S8x272x1024.size (cc0_transform_2 i) (hinb0_2 i)).WholeWords (EltTy.packing .f32)

variable [Facts₀]

def dot_S272x272_S272x1024_S272x1024_1_0_0_1_n_n : DotDims S272x272 S272x1024 S272x1024 where
  lhsContracting := [1]
  rhsContracting := [0]
  lhsNonContracting := [0]
  rhsNonContracting := [1]
  lhsBatch := []
  rhsBatch := []
  wf := dot_S272x272_S272x1024_S272x1024_1_0_0_1_n_n_wf

abbrev spec0_0 : Pipeline.WinSpec sig grid0.rank :=
  Pipeline.WinSpec.ofSpec (Memref.whole main_arg0) S8x272x1024.size reads0_0 false false 2 stage0_0 sem0_0 nbuf0_0 hstage0_0

abbrev spec0_1 : Pipeline.WinSpec sig grid0.rank :=
  Pipeline.WinSpec.ofSpec (Memref.whole main_v1) S16x272x272.size reads0_1 false true 1 stage0_1 sem0_1 nbuf0_1 hstage0_1

abbrev spec0_2 : Pipeline.WinSpec sig grid0.rank :=
  Pipeline.WinSpec.ofSpec (Memref.whole main_v2) S8x272x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S128x272x1024 : Shape := ⟨3, ![128, 272, 1024]⟩
abbrev S128 : Shape := ⟨1, ![128]⟩
abbrev S16x272x272 : Shape := ⟨3, ![16, 272, 272]⟩
abbrev S_ : Shape := ⟨0, ![]⟩
abbrev S128x1 : Shape := ⟨2, ![128, 1]⟩
abbrev S128x272x272 : Shape := ⟨3, ![128, 272, 272]⟩

abbrev nBuf : Space → Nat
  | .hbm => 13
  | .vmem => 0
  | .smem => 0
  | _ => 0

abbrev bufTy : (tb : Table) → Fin (tcTables nBuf tb) → BufTy
  | .hbm, ⟨0, _⟩ => ⟨S128x272x1024, .f32⟩
  | .hbm, ⟨1, _⟩ => ⟨S128, .i32⟩
  | .hbm, ⟨2, _⟩ => ⟨S16x272x272, .f32⟩
  | .hbm, ⟨3, _⟩ => ⟨S_, .i32⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S128x1, .i32⟩
  | .hbm, ⟨11, _⟩ => ⟨S128x272x272, .f32⟩
  | .hbm, ⟨12, _⟩ => ⟨S128x272x1024, .f32⟩
  | _, _ => ⟨S128x272x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  gather_S16x272x272_S128x1_S128x272x272_12_0_n_n_0_1_1272272_wf : GatherDims.WF S16x272x272 S128x1 S128x272x272 [1, 2] [0] [] [0] [] 1 ![1, 272, 272]
  dot_S128x272x272_S128x272x1024_S128x272x1024_2_1_1_2_0_0_wf : DotDims.WF S128x272x272 S128x272x1024 S128x272x1024 [2] [1] [1] [2] [0] [0]

variable [Facts₀]

def gather_S16x272x272_S128x1_S128x272x272_12_0_n_n_0_1_1272272 : GatherDims S16x272x272 S128x1 S128x272x272 where
  offsetDims := [1, 2]
  collapsedSliceDims := [0]
  operandBatchingDims := []
  startIndicesBatchingDims := []
  startIndexMap := [0]
  indexVectorDim := 1
  sliceSizes := ![1, 272, 272]
  wf := gather_S16x272x272_S128x1_S128x272x272_12_0_n_n_0_1_1272272_wf
def dot_S128x272x272_S128x272x1024_S128x272x1024_2_1_1_2_0_0 : DotDims S128x272x272 S128x272x1024 S128x272x1024 where
  lhsContracting := [2]
  rhsContracting := [1]
  lhsNonContracting := [1]
  rhsNonContracting := [2]
  lhsBatch := [0]
  rhsBatch := [0]
  wf := dot_S128x272x272_S128x272x1024_S128x272x1024_2_1_1_2_0_0_wf

class Facts : Prop extends Facts₀ where

variable [Facts]
-- ==== Proof.K.Base.lean ====
/-
  The setting in which the kernel's region runs.

  The program is three stretches of host operations — two constants; the clip of the subject labels into [0, 15]
  (a maximum with 0, then a minimum with 15); the weight table's change of float format — and then ONE kernel region on
  a grid of sixteen points.  The clipped labels are the region's prefetched table: the region reads them off memory at
  its entry, and the body reads single words of them.

  This module names the memory the region finds (every buffer after the three host stretches), shows that the host
  stretches leave the three argument arrays as launched, reads the table off that memory, and states what an input
  window's staging buffer holds at a grid point: the block of its array at that point, whether or not the pipeline
  fetched it there.  Window 0 is the sample block (eight samples a point), window 1 the whole converted weight table
  (the same block at every point), window 2 the result block.
-/
import proofs.«417265_j75608604279341_3_alg».proof.Proof.Gen.Kernel.Launch
import proofs.«417265_j75608604279341_3_alg».proof.Proof.Gen.Kernel.Skeleton
import proofs.«417265_j75608604279341_3_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the region finds -/

/-- Core c's buffers when the region is entered: the launch memory after the three host stretches. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the region: the host stretches run, and the region is entered on the memory V. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes the sample array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.TRef.unary, StableHlo.TRef.binary, Finset.mem_singleton]
    repeat' apply And.intro
    all_goals exact StableHlo.devRef_ne_of_ne (by decide)))
/-- No host operation writes the label array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.TRef.unary, StableHlo.TRef.binary, Finset.mem_singleton]
    repeat' apply And.intro
    all_goals exact StableHlo.devRef_ne_of_ne (by decide)))
/-- No host operation writes the weight table. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.TRef.unary, StableHlo.TRef.binary, Finset.mem_singleton]
    repeat' apply And.intro
    all_goals exact StableHlo.devRef_ne_of_ne (by decide)))

/-! ## The prefetched table: the clipped labels, read off the memory the region finds -/

/-- The table's contents when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's index map reads the table, so every contents of it is admissible. -/
theorem ok : ok0 (F := F) (tbl m) := by unfold ok0; trivial
abbrev adm : (pcfg0 (F := F)).Adm := ⟨tbl m, ok m⟩
abbrev cfgM : Pipeline.Cfg sig Λ₀ := cfg0 (adm m)

/-- The table as the body is handed it: its whole buffer as a memref. -/
abbrev tbM : Memref sig .tc .smem S128 .i32 := Memref.whole main_v0
abbrev htbM : tbM.IsWhole := Memref.isWhole_whole _
abbrev TbBuf (c : Dev nD) {S : Shape} {e : EltTy} (M : Memref sig .tc .smem S e) : Type := Buf (Elt F) (M.view.loc (c : Thread nD τ))
/-- The table held at half the full share (read-only: the pipeline keeps the other half). -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = tbPt c tbM (tbl m 0) := by
  unfold Pipeline.ΦT Pipeline.prefHeld
  rw [show (Finset.univ : Finset (Fin 1)) = {(0 : Fin 1)} from by decide, bigSep_singleton]
  rfl

/-! ## The windows' blocks -/

/-- Window w's block at point t, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The sample window's staging buffer holds its block at every point, for any proof data over V whose body leaves the
    block in place. -/
theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds the whole converted table at every point, likewise. -/
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, and the body as the pipeline calls it -/

abbrev ms0 (t : Fin (cfgM m).N) : Memref sig .tc .vmem S8x272x1024 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S16x272x272 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S8x272x1024 .f32 := spec0_2.stage ((cfgM m).slots t 2)
abbrev hs2 (t : Fin (cfgM m).N) : (ms2 m t).IsWhole := hstage0_2 (((cfgM m).slots t 2).cast nbuf0_2)

/-- The kernel body at point t, on the table and on the three current staging memrefs. -/
abbrev bodyAt (t : Fin (cfgM m).N) : Prog (TpuEff nD τ sig (Elt F) Λ₀ .tc) PUnit :=
  cc0__moe_kernel (grid0.coords t) tbM htbM (ms0 m t) (hs0 m t) (ms1 m t) (hs1 m t) (ms2 m t) (hs2 m t)

/-! ## The frame claim's post from a frame run's -/

/-- For any proof data over V, a run whose final memory has every window's array at what the proof data compute and every
    other unscoped buffer as the region found it leaves the three argument arrays as launched: the sample array is an
    input window's array, the other two are no window's. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

end Cert.Kernel.Hand

end
-- ==== Proof.K.Loop.lean ====
/-
  The body's counted loop, trip by trip.

  At a grid point the body makes eight trips, one per sample of the point's block.  Trip k reads one word of the table —
  the clipped label of sample 8·(point) + k —, loads the row of the converted weight table that word names (a 272 × 272
  matrix), loads sample k of the sample block (272 × 1024), multiplies the two, and stores the product as slab k of the
  result block.  The load of the matrix is inside the table only if the word, as an index, is below 16: the trip takes that
  as a hypothesis about the word it reads.

  The invariant before trip k: the table, the sample block and the weight table are held unchanged, and the result block
  holds its contents at loop entry overwritten by the stores of the trips before k.
-/
import proofs.«417265_j75608604279341_3_alg».proof.Proof.K.Base

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word trip k reads at the point with coordinates i: entry 8·i + k of the table held at contents xt. -/
abbrev wordAt (c : Dev nD) (xt : TbBuf (F := F) c tbM) (i : grid0.Coords) (k : Fin k0_t1_loop.trips) : Elt F .i32 :=
  tbM.view.readAt (Elt F) (Rect.unit (s := S128) (k0_off1 i k) S1.size (k0_off1_inb i k)).toLoadRect xt (Shape.Idx.first (numel1_S1.symm ▸ Nat.one_pos))

/-- One trip's resources: the table at half share, the sample block and the weight table at their contents, the result
    block at any. -/
abbrev Trip (c : Dev nD) (arg2 : Memref sig .tc .vmem S8x272x1024 .f32) (arg3 : Memref sig .tc .vmem S16x272x272 .bf16) (arg4 : Memref sig .tc .vmem S8x272x1024 .f32)
    (xt : TbBuf (F := F) c tbM) (X2 : BufTy.Contents (Elt F) arg2.view.ty) (X3 : BufTy.Contents (Elt F) arg3.view.ty) (f4 : BufTy.Contents (Elt F) arg4.view.ty) : sProp 𝕄 :=
  iprop(tbPt c tbM xt ∗ (arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} f4))

/-- ONE TRIP at a symbolic k, given that the word it reads indexes a row of the table: the pieces it writes into the result
    block are what the run of the trip finds. -/
@[irreducible] def trip (𝒱 : Variants) (c : Dev nD) (bd : Option 𝒱.V) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty) (k : Fin k0_t1_loop.trips)
    (hw : k0_chk1 (wordAt c xt i k)) :
    { L : List (View.Piece (Elt F) S8x272x1024 .f32) // ∀ (E : Set ℕ) (f4 : BufTy.Contents (Elt F) arg4.view.ty),
      Trip (F := F) c arg2 arg3 arg4 xt X2 X3 f4
      ⊢ wp frame (wpE (defs₀ (F := F)) 𝒱 (c : Thread nD τ) bd) E (k0_t1_body (F := F) i tbM htbM arg2 harg2 arg3 harg3 arg4 harg4 k PUnit.unit)
          (fun _ => Trip (F := F) c arg2 arg3 arg4 xt X2 X3 (arg4.view.writes (Elt F) f4 L)) } := by
  have hk : k.val < 8 := Nat.lt_of_lt_of_le k.isLt k0_t1_abs.2.1
  refine ⟨?_, fun E f4 => ?run⟩
  case run =>
    unfold k0_t1_body
    iintro ⟨HT, HR2, HR3, HW4⟩
    sl_exec (disch := sl_exact hw)
    sl_step
    sl_close

/-- The trip's pieces. -/
abbrev tripL (𝒱 : Variants) (c : Dev nD) (bd : Option 𝒱.V) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty) (k : Fin k0_t1_loop.trips)
    (hw : k0_chk1 (wordAt c xt i k)) : List (View.Piece (Elt F) S8x272x1024 .f32) :=
  (trip (F := F) 𝒱 c bd i arg2 harg2 arg3 harg3 arg4 harg4 xt X2 X3 k hw).1

/-- Trip k's pieces in front of those of the trips before it; past the last trip, nothing more. -/
@[irreducible] def pbStep (𝒱 : Variants) (c : Dev nD) (bd : Option 𝒱.V) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty)
    (hwL : ∀ k : Fin k0_t1_loop.trips, k0_chk1 (wordAt c xt i k)) (k : ℕ) (prev : List (View.Piece (Elt F) S8x272x1024 .f32)) : List (View.Piece (Elt F) S8x272x1024 .f32) :=
  if h : k < k0_t1_loop.trips then
    (tripL (F := F) 𝒱 c bd i arg2 harg2 arg3 harg3 arg4 harg4 xt X2 X3 ⟨k, h⟩ (hwL ⟨k, h⟩)) ++ prev
  else prev

/-- The pieces of the trips before k, last first. -/
def pb (𝒱 : Variants) (c : Dev nD) (bd : Option 𝒱.V) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty)
    (hwL : ∀ k : Fin k0_t1_loop.trips, k0_chk1 (wordAt c xt i k)) : ℕ → List (View.Piece (Elt F) S8x272x1024 .f32)
  | 0 => []
  | k + 1 => pbStep 𝒱 c bd i arg2 harg2 arg3 harg3 arg4 harg4 xt X2 X3 hwL k (pb 𝒱 c bd i arg2 harg2 arg3 harg3 arg4 harg4 xt X2 X3 hwL k)

theorem pb_succ (𝒱 : Variants) (c : Dev nD) (bd : Option 𝒱.V) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty)
    (hwL : ∀ k : Fin k0_t1_loop.trips, k0_chk1 (wordAt c xt i k)) (k : Fin k0_t1_loop.trips) :
    pb (F := F) 𝒱 c bd i arg2 harg2 arg3 harg3 arg4 harg4 xt X2 X3 hwL (k.val + 1)
      = (tripL (F := F) 𝒱 c bd i arg2 harg2 arg3 harg3 arg4 harg4 xt X2 X3 k (hwL k)) ++ (pb (F := F) 𝒱 c bd i arg2 harg2 arg3 harg3 arg4 harg4 xt X2 X3 hwL k.val) := by
  rw [pb.eq_2]; unfold pbStep; exact dif_pos k.isLt

/-- THE INVARIANT before trip k: the table, the sample block and the weight table as they were; the result block at its
    loop-entry contents G4 overwritten by the pieces of the trips before k. -/
abbrev inv (𝒱 : Variants) (c : Dev nD) (bd : Option 𝒱.V) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty)
    (hwL : ∀ k : Fin k0_t1_loop.trips, k0_chk1 (wordAt c xt i k)) (G4 : BufTy.Contents (Elt F) arg4.view.ty) (k : ℕ) (_u : PUnit) : sProp 𝕄 :=
  iprop(tbPt c tbM xt ∗ (arg2.view.loc (c : Thread nD τ) ↦[arg2.view.set]{fullShare} X2) ∗ (arg3.view.loc (c : Thread nD τ) ↦[arg3.view.set]{fullShare} X3)
    ∗ (∃ f, (arg4.view.loc (c : Thread nD τ) ↦[arg4.view.set]{fullShare} f) ∗ ⌜f = arg4.view.writes (Elt F) G4 (pb (F := F) 𝒱 c bd i arg2 harg2 arg3 harg3 arg4 harg4 xt X2 X3 hwL k)⌝))

set_option warn.classDefReducibility false in
/-- THE LOOP BY ITS INVARIANT: a run that meets the loop holding the four buffers goes through it in one step, and holds
    the result block at its entry contents overwritten by the pieces of all the trips. -/
@[sl_loop] def loopInv (𝒱 : Variants) (c : Dev nD) (bd : Option 𝒱.V) (E : Set ℕ) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty)
    (hwL : ∀ k : Fin k0_t1_loop.trips, k0_chk1 (wordAt c xt i k)) (G4 : BufTy.Contents (Elt F) arg4.view.ty) :
    LoopInvTy_k0_t1 (F := F) Unit ℕ (UR sig nD τ) ℕ 𝒱 c bd E i tbM htbM arg2 harg2 arg3 harg3 arg4 harg4 where
  inv := inv (F := F) 𝒱 c bd i arg2 harg2 arg3 harg3 arg4 harg4 xt X2 X3 hwL G4
  step k acc := by
    iintro ⟨HT, HR2, HR3, ⟨%f4, HW4, %h4⟩⟩
    iapply (wp_wand_r Idealize.ShloMosaic.frame (wpE (defs₀ (F := F)) 𝒱 (c : Thread nD τ) bd) E)
    isplitl [HT HR2 HR3 HW4]
    · iapply ((trip (F := F) 𝒱 c bd i arg2 harg2 arg3 harg3 arg4 harg4 xt X2 X3 k (hwL k)).2 E f4)
      isplitl [HT]; · iexact HT
      isplitl [HR2]; · iexact HR2
      isplitl [HR3]; · iexact HR3
      iexact HW4
    · iintro %_ ⟨HT, HR2, HR3, HW4⟩
      isplitl [HT]; · iexact HT
      isplitl [HR2]; · iexact HR2
      isplitl [HR3]; · iexact HR3
      rw [pb_succ]
      iexists _; isplitl [HW4]; · iexact HW4
      ipureintro; rw [h4, ← View.writes_append]

end Cert.Kernel.Hand

end
-- ==== Proof.K.Run.lean ====
/-
  The whole body at a grid point, run once.

  The body is the eight-trip loop and nothing else.  Holding the sample block and the weight table at their contents, the
  result block at any contents and the table at half share, and given that every word the trips read indexes a row of the
  weight table, the body runs to its end holding the inputs and the table as they were and the result block overwritten by
  the trips' stores, which are the witness the run finds.
-/
import proofs.«417265_j75608604279341_3_alg».proof.Proof.K.Loop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The pieces the body's stores leave in the result block (last first), with the proof that the body runs as described. -/
noncomputable def kernelRun (c : Dev nD) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (x0 : Vec F S8x272x1024 .f32) (w0 : Vec F S16x272x272 .bf16) (xt : TbBuf (F := F) c tbM)
    (hwL : ∀ k : Fin k0_t1_loop.trips, k0_chk1 (wordAt c xt i k)) :
    { L1 : List (View.Piece (Elt F) S8x272x1024 .f32) //
      ∀ (E : Set ℕ) (K : PUnit → sProp 𝕄),
        iprop(owns (c : Thread nD τ) arg2 fullShare x0 ∗ owns (c : Thread nD τ) arg3 fullShare w0 ∗ (∃ d, owns (c : Thread nD τ) arg4 fullShare d) ∗ tbPt c tbM xt
            ∗ (iprop(owns (c : Thread nD τ) arg2 fullShare x0 ∗ owns (c : Thread nD τ) arg3 fullShare w0
                ∗ (∃ f, arg4.view.loc (c : Thread nD τ) ↦[arg4.view.set]{fullShare} arg4.view.writes (Elt F) f L1) ∗ tbPt c tbM xt) -∗ K ⟨⟩))
          ⊢ wp frame (wpE (defs₀ (F := F)) Variants.none c none) E (cc0__moe_kernel i tbM htbM arg2 harg2 arg3 harg3 arg4 harg4) K } := by
  refine ⟨?_, fun E K => ?run⟩
  case run =>
    simp only [cc0__moe_kernel_eq_skeleton]; unfold cc0__moe_kernel_skel
    unfold owns
    iintro ⟨⟨%f2, %hf2, H2⟩, ⟨%f3, %hf3, H3⟩, ⟨%d4, %f4, -, H4⟩, HT, Hk⟩
    obtain rfl := harg2.eq_unread hf2
    obtain rfl := harg3.eq_unread hf3
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    iexact HT

end Cert.Kernel.Hand

end
-- ==== Proof.K.Frame.lean ====
/-
  The region's run: the proof data, the body at every grid point, the launch, and the frame.

  The pieces the body's run leaves in the result block are eight slabs along its first axis, one per trip, so they tile the
  block: whatever the block held before, after the body it holds those pieces' contents.  The proof data say, at every grid
  point: the sample window holds its block of the sample array, the weight window the whole converted table, the result
  window what the body's run leaves given those two and the table.  The body's obligation at a point is then the run at
  that point's staging buffers; the launch theorem for a region with a prefetched table, after a prefix of host operations,
  turns the obligation into a run of the whole program whose final memory has the result array assembled from the blocks
  written back and every other buffer as the region found it.  All of it holds under one hypothesis on the table: that every
  word a trip reads, at every point, indexes a row of the weight table.
-/
import proofs.«417265_j75608604279341_3_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The hypothesis on the table: at every grid point, every word a trip reads indexes a row of the weight table. -/
def Hyps : Prop :=
  ∀ (c : Dev nD) (t : Fin (cfgM m).N) (k : Fin k0_t1_loop.trips), k0_chk1 (wordAt c (tbl m 0) (grid0.coords t) k)

/-- One staging buffer of the result window, through which its contents are stated (the choice does not matter). -/
abbrev VO : View sig .tc .vmem S8x272x1024 .f32 := (Memref.whole cc0_stg2_0 : Memref sig .tc .vmem S8x272x1024 .f32).view

/-- The run's pieces are eight slabs of extent 1 × 272 × 1024 at the first-axis offsets 0, …, 7: they tile the block. -/
theorem cover (c : Dev nD) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (x0 : Vec F S8x272x1024 .f32) (w0 : Vec F S16x272x272 .bf16) (xt : TbBuf (F := F) c tbM)
    (hwL : ∀ k : Fin k0_t1_loop.trips, k0_chk1 (wordAt c xt i k)) (y : S8x272x1024.Idx) :
    ∃ pc ∈ (kernelRun c i arg2 harg2 arg3 harg3 arg4 harg4 x0 w0 xt hwL).1, y ∈ pc.1.set :=
  View.cover_of_tiledL (kernelRun c i arg2 harg2 arg3 harg3 arg4 harg4 x0 w0 xt hwL).1 S1x272x1024.size (by sl_kernel_rfl) y

/-- What the run leaves in the result block: its pieces read back. -/
def outOf (c : Dev nD) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (x0 : Vec F S8x272x1024 .f32) (w0 : Vec F S16x272x272 .bf16) (xt : TbBuf (F := F) c tbM)
    (hwL : ∀ k : Fin k0_t1_loop.trips, k0_chk1 (wordAt c xt i k)) : Vec F S8x272x1024 .f32 :=
  VO.read (Elt F) (VO.writes (Elt F) VO.junk (kernelRun c i arg2 harg2 arg3 harg3 arg4 harg4 x0 w0 xt hwL).1)

/-- What the result window's staging buffer holds after the body at point t. -/
def outsAt (hH : Hyps m) (c : Dev nD) (t : Fin (cfgM m).N) : Vec F S8x272x1024 .f32 :=
  outOf c (grid0.coords t) (ms0 m t) (hs0 m t) (ms1 m t) (hs1 m t) (ms2 m t) (hs2 m t) (iblk m c 0 t) (iblk m c 1 t) (tbl m 0) (hH c t)

/-! ## The proof data -/

/-- The arrays as the region finds them; after the body at point t each input's buffer at its block and the result's at
    outsAt; the invariant is the scratch the body may use freely together with the table's half share; nothing owed. -/
def dats (hH : Hyps m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => (outsAt m hH c t)
  Φ _ := iprop(Pipeline.ΦA spec0 c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after0 (hH : Hyps m) (c : Dev nD) (t : Fin (cfgM m).N) : (dats m hH 0 c).after 0 t = iblk m c 0 t := by dsimp only [dats]; try rfl
theorem after1 (hH : Hyps m) (c : Dev nD) (t : Fin (cfgM m).N) : (dats m hH 0 c).after 1 t = iblk m c 1 t := by dsimp only [dats]; try rfl
theorem after2 (hH : Hyps m) (c : Dev nD) (t : Fin (cfgM m).N) : (dats m hH 0 c).after 2 t = (outsAt m hH c t) := by dsimp only [dats]; try rfl

theorem before0 (hH : Hyps m) (c : Dev nD) (t : Fin (cfgM m).N) (d) : (dats m hH 0 c).before 0 t d = iblk m c 0 t :=
  before0_of m (dats m hH 0 c) (A_eq m hH c 0) (after0 m hH c) t d
theorem before1 (hH : Hyps m) (c : Dev nD) (t : Fin (cfgM m).N) (d) : (dats m hH 0 c).before 1 t d = iblk m c 1 t :=
  before1_of m (dats m hH 0 c) (A_eq m hH c 1) (after1 m hH c) t d

/-! ## The body obligation, at a generic point -/

/-- What the body is called with at point t, the windows one by one, -/
def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0 m t) fullShare ((dats m hH 0 c).before 0 t d))
    ∗ (∃ d, owns (c : Thread nD τ) (ms1 m t) fullShare ((dats m hH 0 c).before 1 t d))
    ∗ (∃ d, owns (c : Thread nD τ) (ms2 m t) fullShare ((dats m hH 0 c).before 2 t d)))

/-- and what it returns. -/
def bodyPost (hH : Hyps m) (c : Dev nD) (t : Fin (cfgM m).N) : sProp 𝕄 :=
  iprop((dats m hH 0 c).Φ t.succ ∗ (dats m hH 0 c).owesAt () t.succ
    ∗ owns (c : Thread nD τ) (ms0 m t) fullShare ((dats m hH 0 c).after 0 t)
    ∗ owns (c : Thread nD τ) (ms1 m t) fullShare ((dats m hH 0 c).after 1 t)
    ∗ owns (c : Thread nD τ) (ms2 m t) fullShare ((dats m hH 0 c).after 2 t))

/-- The body at any point: the inputs' buffers hold their blocks, so the run applies; the invariant passes through. -/
theorem sound_body (hH : Hyps m) (c : Dev nD) (t : Fin (cfgM m).N) :
    bodyPre m hH c t ⊢ wp frame (wpE (defs₀ (F := F)) Variants.none c none) Set.univ (bodyAt m t) (fun _ => bodyPost m hH c t) := by
  unfold bodyPre bodyPost bodyAt
  simp only [before0, before1]
  rw [show (dats m hH 0 c).Φ t.succ = (dats m hH 0 c).Φ t.castSucc from rfl,
    show (dats m hH 0 c).owesAt () t.succ = (dats m hH 0 c).owesAt () t.castSucc from rfl,
    after0, after1, after2]
  rw [show (dats m hH 0 c).Φ t.castSucc = iprop(Pipeline.ΦA spec0 c ∗ Pipeline.ΦT pre0 (tbl m) c) from rfl, PhiT_eq]
  unfold outsAt
  unfold outOf
  iintro ⟨⟨HΦ, HT⟩, Ho, ⟨%d0, H0⟩, ⟨%d1, H1⟩, ⟨%d2, H2⟩⟩
  iapply ((kernelRun c (grid0.coords t) _ _ _ _ _ _ (iblk m c 0 t) (iblk m c 1 t) (tbl m 0) (hH c t)).2 Set.univ _)
  isplitl [H0]; · iexact H0
  isplitl [H1]; · iexact H1
  isplitl [H2]; · iexists _; iexact H2
  isplitl [HT]; · iexact HT
  iintro ⟨H0, H1, ⟨%e2, H2⟩, HT⟩
  isplitl [HΦ HT]
  · isplitl [HΦ]
    · iexact HΦ
    iexact HT
  isplitl [Ho]; · iexact Ho
  isplitl [H0]; · iexact H0
  isplitl [H1]; · iexact H1
  unfold owns; iexists _; isplitr
  swap; · iexact H2
  ipureintro; exact View.read_writes_of_cover _ _ _ _ _ (cover c _ _ _ _ _ _ _ _ _ _ _)

/-- The library's body obligation, at every point. -/
theorem body_obligation (hH : Hyps m) (c : Dev nD) : BodyObligation (dats (F := F) m hH 0 c) (defs₀ (F := F)) Variants.none () Set.univ := fun t => by
  rw [bigSep_W0, bigSep_W0]
  exact sound_body m hH c t

/-! ## The run and the frame -/

set_option backward.isDefEq.respectTransparency.types false in
/-- Every weakly fair execution of the program terminates, and its final memory has every window's array at what the
    library computes from the proof data and every other unscoped buffer as the region found it. -/
theorem run_main (hH : Hyps m) : θ_run defs (onTc (τ := τ) (main (F := F))) (s₀ m ρ) (Pipeline.FramePost (Pipeline.pin pcfgs fun _ => adm m) (dats m hH) 0 (V m)) :=
  Pipeline.θ_run_frameP pcfgs (fun _ => adm m) (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hpf := V_pre m)
    (hΦ := fun _ _ => rfl)

/-- The frame: the program runs, and the three argument arrays end as launched. -/
theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m hH) (A_eq m hH) (run_main m ρ hH)

end Cert.Kernel.Hand

end
-- ==== Proof.Spec.lean ====
/-
  The function both programs compute, index by index, on the extended reals.

  For a batch entry b, an output channel o and a time step t,

      out[b, o, t] = ∑_{c < 272} W[row(idx[b]), o, c] · x[b, c, t],

  where row(v) is the subject label v, read as a signed integer, clipped into [0, 15]: each sample is mixed by the
  272 × 272 matrix its subject label selects from the table of sixteen.
-/
import Idealize.ShloMosaic.PureOps.Ideal
import Idealize.ShloMosaic.Lib.ValueIdx

noncomputable section

namespace Cert.Spec

open Idealize.ShloMosaic Idealize.ShloMosaic.ValueIdx

abbrev SX : Shape := ⟨3, ![128, 272, 1024]⟩
abbrev SI : Shape := ⟨1, ![128]⟩
abbrev SW : Shape := ⟨3, ![16, 272, 272]⟩

/-- The row of the weight table a subject label selects: the label, as a signed integer, clipped into [0, 15]. -/
def rowOf (v : BitVec 32) : Fin 16 := ⟨min v.toInt.toNat 15, by omega⟩

theorem rowOf_val (v : BitVec 32) : (rowOf v).val = min v.toInt.toNat 15 := rfl

/-- One entry of the result: the selected matrix's row o against column t of sample b. -/
def entry (x : FVec Ideal SX .f32) (idx : IVec SI 32) (W : FVec Ideal SW .f32) (b : Fin 128) (o : Fin 272) (t : Fin 1024) :
    Ideal .f32 :=
  ∑ c : Fin 272, W (ix3 (rowOf (idx (ix1 b))) o c) * x (ix3 b c t)

/-- The whole result array. -/
def G (x : FVec Ideal SX .f32) (idx : IVec SI 32) (W : FVec Ideal SW .f32) : FVec Ideal SX .f32 :=
  fun j => entry x idx W (j 0) (j 1) (j 2)

theorem G_apply (x : FVec Ideal SX .f32) (idx : IVec SI 32) (W : FVec Ideal SW .f32) (b : Fin 128) (o : Fin 272) (t : Fin 1024) :
    G x idx W (ix3 b o t) = entry x idx W b o t := rfl

end Cert.Spec

end
-- ==== Proof.K.Table.lean ====
/-
  The table of clipped labels, and the words the body reads off it.

  Before the region runs, the program clips every subject label into [0, 15]: the signed maximum with 0, then the signed
  minimum with 15, entry by entry on the vector of 128 labels.  The clipped vector is the region's table.  Trip k of grid
  point t reads ONE word of it, the entry 8·t + k, and loads the row of the weight table that word names.

  Three things are shown.  (1) The table the region finds is the clipped label vector, so its entry b is label b clipped.
  (2) A read of one entry through the whole table's view at offset 8·t + k is the table's entry there; on the one-axis
  grid of sixteen points, point t has coordinate t.  (3) For every word v, the clip of v read unsigned is v read signed
  and clipped into [0, 15]: it is below 16, so the row it names lies inside the table of sixteen matrices, and it is the
  specification's row of v.  Together: every word the body reads passes the side condition its trip assumes, and the row
  the trip loads is the specification's row of label 8·t + k.
-/
import proofs.«417265_j75608604279341_3_alg».proof.Proof.K.Loop
import proofs.«417265_j75608604279341_3_alg».proof.Proof.Spec
import Idealize.ShloMosaic.Lib.StableHlo.Run
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The table: the labels clipped into [0, 15] -/

/-- A label clipped into [0, 15] as a signed integer: the maximum with 0, then the minimum with 15. -/
def clipW (v : BitVec 32) : BitVec 32 := IntOp.minsi 15#32 (IntOp.maxsi 0#32 v)

/-- The label vector clipped entry by entry, as the host operations compute it. -/
def clipV (x : IVec S128 32) : IVec S128 32 :=
  minsi (broadcastInDim S128 ![] bcast_S_S128 (constantI S_ 32 15#32))
    (maxsi (broadcastInDim S128 ![] bcast_S_S128 (constantI S_ 32 0#32)) x)

theorem clipV_apply (x : IVec S128 32) (b : Fin 128) : clipV x (ix1 b) = clipW (x (ix1 b)) := rfl

/-- The table the region finds is the clipped label vector. -/
theorem tbl_eq (m : (ℓ : Loc nD τ sig) → Buf (Elt F) ℓ) :
    (tbl (F := F) m 0 : IVec S128 32) = clipV (m ((0 : Dev nD).tc.loc main_arg1)) := by
  dsimp only [tbl, V]
  simp only [hostOps0, hostOps0_1, hostOps0_2, List.flatten_cons, List.flatten_nil, List.append_nil, List.cons_append,
    List.nil_append]
  after_results
  rfl

/-- Entry b of the table is label b clipped. -/
theorem tbl_apply (m : (ℓ : Loc nD τ sig) → Buf (Elt F) ℓ) (b : Fin 128) :
    (tbl (F := F) m 0 : IVec S128 32) (ix1 b) = clipW (m ((0 : Dev nD).tc.loc main_arg1) (ix1 b)) := by
  rw [tbl_eq, clipV_apply]

/-! ## The word a trip reads -/

theorem point_lt (t : Fin grid0.N) : t.val < 16 := Nat.lt_of_lt_of_le t.isLt (Nat.le_of_eq N_0)

theorem trip_lt (k : Fin k0_t1_loop.trips) : k.val < 8 := Nat.lt_of_lt_of_le k.isLt k0_t1_abs.2.1

/-- The sample trip k of point t works on: 8·t + k, one of the 128. -/
abbrev lab (t : Fin grid0.N) (k : Fin k0_t1_loop.trips) : Fin 128 :=
  ⟨8 * t.val + k.val, by have := point_lt t; have := trip_lt k; omega⟩

/-- On the one-axis grid of sixteen points, point t has coordinate t. -/
theorem coord_val (t : Fin grid0.N) : ((grid0.coords t) 0).val = t.val := by
  show t.val / grid0.stride 0 % grid0.bound 0 = t.val
  rw [show grid0.stride 0 = 1 from by decide, show grid0.bound 0 = 16 from rfl, Nat.div_one,
    Nat.mod_eq_of_lt (point_lt t)]

/-- A one-entry rectangle of a vector of 128 at offset n has the one index n. -/
theorem unit_idx (off : Fin 1 → Nat) (inb : ∀ a, off a + S1.size a ≤ S128.size a) (h1 : 0 < S1.numel) (n : Fin 128)
    (hn : off 0 = n.val) :
    (Rect.unit (s := S128) off S1.size inb).toLoadRect.idx (Shape.Idx.first h1) = ix1 n := by
  funext a
  match a with
  | ⟨0, _⟩ =>
    refine Fin.ext ?_
    show off 0 + 1 * 0 = n.val
    omega

/-- The word trip k reads at coordinates i, off any contents of the table: the entry 8·i + k. -/
theorem word_var (c : Dev nD) (xt : TbBuf (F := F) c tbM) (i : grid0.Coords) (k : Fin k0_t1_loop.trips) (n : Fin 128)
    (hn : 8 * (i 0).val + k.val = n.val) :
    wordAt c xt i k = (xt : IVec S128 32) (ix1 n) :=
  congrArg (xt : IVec S128 32) (unit_idx _ _ _ n (by rw [k0_off1_eq]; exact hn))

/-- The word trip k of point t reads off the table the region finds: entry 8·t + k of it. -/
theorem word_eq (m : (ℓ : Loc nD τ sig) → Buf (Elt F) ℓ) (c : Dev nD) (t : Fin (cfgM m).N) (k : Fin k0_t1_loop.trips) :
    wordAt c (tbl (F := F) m 0) (grid0.coords t) k = (tbl (F := F) m 0 : IVec S128 32) (ix1 (lab t k)) :=
  word_var c (tbl m 0) (grid0.coords t) k (lab t k) (by rw [coord_val])

/-! ## A clipped label as a row of the weight table -/

/-- A nonnegative signed reading is the unsigned one. -/
theorem toNat_of_nonneg (v : BitVec 32) (h : 0 ≤ v.toInt) : v.toNat = v.toInt.toNat := by
  have hv := v.isLt
  rw [BitVec.toInt_eq_toNat_cond] at h ⊢
  split at h <;> split <;> omega

/-- The signed maximum with 0, read signed. -/
theorem maxsi_zero_toInt (v : BitVec 32) : (IntOp.maxsi 0#32 v).toInt = max 0 v.toInt := by
  have h0 : (0#32 : BitVec 32).toInt = 0 := by decide
  unfold IntOp.maxsi
  split
  · rename_i h
    have h1 := BitVec.slt_iff_toInt_lt.1 h
    rw [h0] at h1 ⊢
    omega
  · rename_i h
    have h1 : ¬ v.toInt < (0#32 : BitVec 32).toInt := fun hh => h (BitVec.slt_iff_toInt_lt.2 hh)
    rw [h0] at h1
    omega

/-- The signed minimum with 15, read signed. -/
theorem minsi_fifteen_toInt (u : BitVec 32) : (IntOp.minsi 15#32 u).toInt = min 15 u.toInt := by
  have h15 : (15#32 : BitVec 32).toInt = 15 := by decide
  unfold IntOp.minsi
  split
  · rename_i h
    have h1 := BitVec.slt_iff_toInt_lt.1 h
    rw [h15] at h1 ⊢
    omega
  · rename_i h
    have h1 : ¬ (15#32 : BitVec 32).toInt < u.toInt := fun hh => h (BitVec.slt_iff_toInt_lt.2 hh)
    rw [h15] at h1
    omega

/-- The clipped label, read unsigned, is the label read signed and clipped into [0, 15]. -/
theorem clipW_toNat (v : BitVec 32) : (clipW v).toNat = min v.toInt.toNat 15 := by
  have h : (clipW v).toInt = min 15 (max 0 v.toInt) := by
    unfold clipW
    rw [minsi_fifteen_toInt, maxsi_zero_toInt]
  rw [toNat_of_nonneg (clipW v) (by omega), h]
  omega

/-- The row a clipped label names lies inside the table of sixteen: the side condition a trip takes of its word. -/
theorem chk_clip (v : BitVec 32) : k0_chk1 (clipW v) := by
  have h := clipW_toNat v
  intro a
  match a with
  | ⟨0, _⟩ =>
    show (clipW v).toNat + 1 ≤ 16
    omega
  | ⟨1, _⟩ => exact Nat.le_refl _
  | ⟨2, _⟩ => exact Nat.le_refl _

/-- The row a clipped label names is the specification's row of the label. -/
theorem row_clip (v : BitVec 32) : (k0_off2 (clipW v)) 0 = (Cert.Spec.rowOf v).val := clipW_toNat v

/-! ## The two facts about the words the body reads -/

/-- Every word the body reads off the table names a row inside the weight table. -/
theorem hyps (m : (ℓ : Loc nD τ sig) → Buf (Elt F) ℓ) :
    ∀ (c : Dev nD) (t : Fin (cfgM m).N) (k : Fin k0_t1_loop.trips), k0_chk1 (wordAt c (tbl (F := F) m 0) (grid0.coords t) k) := by
  intro c t k
  rw [word_eq, tbl_apply]
  exact chk_clip _

/-- The row trip k of point t loads is the specification's row of label 8·t + k. -/
theorem row_eq (m : (ℓ : Loc nD τ sig) → Buf (Elt F) ℓ) (c : Dev nD) (t : Fin (cfgM m).N) (k : Fin k0_t1_loop.trips) :
    (k0_off2 (wordAt c (tbl (F := F) m 0) (grid0.coords t) k)) 0
      = (Cert.Spec.rowOf (m ((0 : Dev nD).tc.loc main_arg1) (ix1 (lab t k)))).val := by
  rw [word_eq, tbl_apply]
  exact row_clip _

end Cert.Kernel.Hand
end
-- ==== Proof.KI.Base.lean ====
/-
  The setting in which the kernel's region runs.

  The program is three stretches of host operations — two constants; the clip of the subject labels into [0, 15]
  (a maximum with 0, then a minimum with 15); the weight table's change of float format — and then ONE kernel region on
  a grid of sixteen points.  The clipped labels are the region's prefetched table: the region reads them off memory at
  its entry, and the body reads single words of them.

  This module names the memory the region finds (every buffer after the three host stretches), shows that the host
  stretches leave the three argument arrays as launched, reads the table off that memory, and states what an input
  window's staging buffer holds at a grid point: the block of its array at that point, whether or not the pipeline
  fetched it there.  Window 0 is the sample block (eight samples a point), window 1 the whole converted weight table
  (the same block at every point), window 2 the result block.
-/
import proofs.«417265_j75608604279341_3_alg».proof.Proof.Gen.KernelIdeal.Launch
import proofs.«417265_j75608604279341_3_alg».proof.Proof.Gen.KernelIdeal.Skeleton
import proofs.«417265_j75608604279341_3_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the region finds -/

/-- Core c's buffers when the region is entered: the launch memory after the three host stretches. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the region: the host stretches run, and the region is entered on the memory V. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes the sample array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.TRef.unary, StableHlo.TRef.binary, Finset.mem_singleton]
    repeat' apply And.intro
    all_goals exact StableHlo.devRef_ne_of_ne (by decide)))
/-- No host operation writes the label array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.TRef.unary, StableHlo.TRef.binary, Finset.mem_singleton]
    repeat' apply And.intro
    all_goals exact StableHlo.devRef_ne_of_ne (by decide)))
/-- No host operation writes the weight table. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.TRef.unary, StableHlo.TRef.binary, Finset.mem_singleton]
    repeat' apply And.intro
    all_goals exact StableHlo.devRef_ne_of_ne (by decide)))

/-! ## The prefetched table: the clipped labels, read off the memory the region finds -/

/-- The table's contents when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's index map reads the table, so every contents of it is admissible. -/
theorem ok : ok0 (F := F) (tbl m) := by unfold ok0; trivial
abbrev adm : (pcfg0 (F := F)).Adm := ⟨tbl m, ok m⟩
abbrev cfgM : Pipeline.Cfg sig Λ₀ := cfg0 (adm m)

/-- The table as the body is handed it: its whole buffer as a memref. -/
abbrev tbM : Memref sig .tc .smem S128 .i32 := Memref.whole main_v0
abbrev htbM : tbM.IsWhole := Memref.isWhole_whole _
abbrev TbBuf (c : Dev nD) {S : Shape} {e : EltTy} (M : Memref sig .tc .smem S e) : Type := Buf (Elt F) (M.view.loc (c : Thread nD τ))
/-- The table held at half the full share (read-only: the pipeline keeps the other half). -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = tbPt c tbM (tbl m 0) := by
  unfold Pipeline.ΦT Pipeline.prefHeld
  rw [show (Finset.univ : Finset (Fin 1)) = {(0 : Fin 1)} from by decide, bigSep_singleton]
  rfl

/-! ## The windows' blocks -/

/-- Window w's block at point t, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The sample window's staging buffer holds its block at every point, for any proof data over V whose body leaves the
    block in place. -/
theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds the whole converted table at every point, likewise. -/
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, and the body as the pipeline calls it -/

abbrev ms0 (t : Fin (cfgM m).N) : Memref sig .tc .vmem S8x272x1024 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S16x272x272 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S8x272x1024 .f32 := spec0_2.stage ((cfgM m).slots t 2)
abbrev hs2 (t : Fin (cfgM m).N) : (ms2 m t).IsWhole := hstage0_2 (((cfgM m).slots t 2).cast nbuf0_2)

/-- The kernel body at point t, on the table and on the three current staging memrefs. -/
abbrev bodyAt (t : Fin (cfgM m).N) : Prog (TpuEff nD τ sig (Elt F) Λ₀ .tc) PUnit :=
  cc0__moe_kernel (grid0.coords t) tbM htbM (ms0 m t) (hs0 m t) (ms1 m t) (hs1 m t) (ms2 m t) (hs2 m t)

/-! ## The frame claim's post from a frame run's -/

/-- For any proof data over V, a run whose final memory has every window's array at what the proof data compute and every
    other unscoped buffer as the region found it leaves the three argument arrays as launched: the sample array is an
    input window's array, the other two are no window's. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

end Cert.KernelIdeal.Hand

end
-- ==== Proof.KI.Loop.lean ====
/-
  The body's counted loop, trip by trip.

  At a grid point the body makes eight trips, one per sample of the point's block.  Trip k reads one word of the table —
  the clipped label of sample 8·(point) + k —, loads the row of the converted weight table that word names (a 272 × 272
  matrix), loads sample k of the sample block (272 × 1024), multiplies the two, and stores the product as slab k of the
  result block.  The load of the matrix is inside the table only if the word, as an index, is below 16: the trip takes that
  as a hypothesis about the word it reads.

  The invariant before trip k: the table, the sample block and the weight table are held unchanged, and the result block
  holds its contents at loop entry overwritten by the stores of the trips before k.
-/
import proofs.«417265_j75608604279341_3_alg».proof.Proof.KI.Base

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word trip k reads at the point with coordinates i: entry 8·i + k of the table held at contents xt. -/
abbrev wordAt (c : Dev nD) (xt : TbBuf (F := F) c tbM) (i : grid0.Coords) (k : Fin k0_t1_loop.trips) : Elt F .i32 :=
  tbM.view.readAt (Elt F) (Rect.unit (s := S128) (k0_off1 i k) S1.size (k0_off1_inb i k)).toLoadRect xt (Shape.Idx.first (numel1_S1.symm ▸ Nat.one_pos))

/-- One trip's resources: the table at half share, the sample block and the weight table at their contents, the result
    block at any. -/
abbrev Trip (c : Dev nD) (arg2 : Memref sig .tc .vmem S8x272x1024 .f32) (arg3 : Memref sig .tc .vmem S16x272x272 .bf16) (arg4 : Memref sig .tc .vmem S8x272x1024 .f32)
    (xt : TbBuf (F := F) c tbM) (X2 : BufTy.Contents (Elt F) arg2.view.ty) (X3 : BufTy.Contents (Elt F) arg3.view.ty) (f4 : BufTy.Contents (Elt F) arg4.view.ty) : sProp 𝕄 :=
  iprop(tbPt c tbM xt ∗ (arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} f4))

/-- ONE TRIP at a symbolic k, given that the word it reads indexes a row of the table: the pieces it writes into the result
    block are what the run of the trip finds. -/
@[irreducible] def trip (𝒱 : Variants) (c : Dev nD) (bd : Option 𝒱.V) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty) (k : Fin k0_t1_loop.trips)
    (hw : k0_chk1 (wordAt c xt i k)) :
    { L : List (View.Piece (Elt F) S8x272x1024 .f32) // ∀ (E : Set ℕ) (f4 : BufTy.Contents (Elt F) arg4.view.ty),
      Trip (F := F) c arg2 arg3 arg4 xt X2 X3 f4
      ⊢ wp frame (wpE (defs₀ (F := F)) 𝒱 (c : Thread nD τ) bd) E (k0_t1_body (F := F) i tbM htbM arg2 harg2 arg3 harg3 arg4 harg4 k PUnit.unit)
          (fun _ => Trip (F := F) c arg2 arg3 arg4 xt X2 X3 (arg4.view.writes (Elt F) f4 L)) } := by
  have hk : k.val < 8 := Nat.lt_of_lt_of_le k.isLt k0_t1_abs.2.1
  refine ⟨?_, fun E f4 => ?run⟩
  case run =>
    unfold k0_t1_body
    iintro ⟨HT, HR2, HR3, HW4⟩
    sl_exec (disch := sl_exact hw)
    sl_step
    sl_close

/-- The trip's pieces. -/
abbrev tripL (𝒱 : Variants) (c : Dev nD) (bd : Option 𝒱.V) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty) (k : Fin k0_t1_loop.trips)
    (hw : k0_chk1 (wordAt c xt i k)) : List (View.Piece (Elt F) S8x272x1024 .f32) :=
  (trip (F := F) 𝒱 c bd i arg2 harg2 arg3 harg3 arg4 harg4 xt X2 X3 k hw).1

/-- Trip k's pieces in front of those of the trips before it; past the last trip, nothing more. -/
@[irreducible] def pbStep (𝒱 : Variants) (c : Dev nD) (bd : Option 𝒱.V) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty)
    (hwL : ∀ k : Fin k0_t1_loop.trips, k0_chk1 (wordAt c xt i k)) (k : ℕ) (prev : List (View.Piece (Elt F) S8x272x1024 .f32)) : List (View.Piece (Elt F) S8x272x1024 .f32) :=
  if h : k < k0_t1_loop.trips then
    (tripL (F := F) 𝒱 c bd i arg2 harg2 arg3 harg3 arg4 harg4 xt X2 X3 ⟨k, h⟩ (hwL ⟨k, h⟩)) ++ prev
  else prev

/-- The pieces of the trips before k, last first. -/
def pb (𝒱 : Variants) (c : Dev nD) (bd : Option 𝒱.V) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty)
    (hwL : ∀ k : Fin k0_t1_loop.trips, k0_chk1 (wordAt c xt i k)) : ℕ → List (View.Piece (Elt F) S8x272x1024 .f32)
  | 0 => []
  | k + 1 => pbStep 𝒱 c bd i arg2 harg2 arg3 harg3 arg4 harg4 xt X2 X3 hwL k (pb 𝒱 c bd i arg2 harg2 arg3 harg3 arg4 harg4 xt X2 X3 hwL k)

theorem pb_succ (𝒱 : Variants) (c : Dev nD) (bd : Option 𝒱.V) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty)
    (hwL : ∀ k : Fin k0_t1_loop.trips, k0_chk1 (wordAt c xt i k)) (k : Fin k0_t1_loop.trips) :
    pb (F := F) 𝒱 c bd i arg2 harg2 arg3 harg3 arg4 harg4 xt X2 X3 hwL (k.val + 1)
      = (tripL (F := F) 𝒱 c bd i arg2 harg2 arg3 harg3 arg4 harg4 xt X2 X3 k (hwL k)) ++ (pb (F := F) 𝒱 c bd i arg2 harg2 arg3 harg3 arg4 harg4 xt X2 X3 hwL k.val) := by
  rw [pb.eq_2]; unfold pbStep; exact dif_pos k.isLt

/-- THE INVARIANT before trip k: the table, the sample block and the weight table as they were; the result block at its
    loop-entry contents G4 overwritten by the pieces of the trips before k. -/
abbrev inv (𝒱 : Variants) (c : Dev nD) (bd : Option 𝒱.V) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty)
    (hwL : ∀ k : Fin k0_t1_loop.trips, k0_chk1 (wordAt c xt i k)) (G4 : BufTy.Contents (Elt F) arg4.view.ty) (k : ℕ) (_u : PUnit) : sProp 𝕄 :=
  iprop(tbPt c tbM xt ∗ (arg2.view.loc (c : Thread nD τ) ↦[arg2.view.set]{fullShare} X2) ∗ (arg3.view.loc (c : Thread nD τ) ↦[arg3.view.set]{fullShare} X3)
    ∗ (∃ f, (arg4.view.loc (c : Thread nD τ) ↦[arg4.view.set]{fullShare} f) ∗ ⌜f = arg4.view.writes (Elt F) G4 (pb (F := F) 𝒱 c bd i arg2 harg2 arg3 harg3 arg4 harg4 xt X2 X3 hwL k)⌝))

set_option warn.classDefReducibility false in
/-- THE LOOP BY ITS INVARIANT: a run that meets the loop holding the four buffers goes through it in one step, and holds
    the result block at its entry contents overwritten by the pieces of all the trips. -/
@[sl_loop] def loopInv (𝒱 : Variants) (c : Dev nD) (bd : Option 𝒱.V) (E : Set ℕ) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty)
    (hwL : ∀ k : Fin k0_t1_loop.trips, k0_chk1 (wordAt c xt i k)) (G4 : BufTy.Contents (Elt F) arg4.view.ty) :
    LoopInvTy_k0_t1 (F := F) Unit ℕ (UR sig nD τ) ℕ 𝒱 c bd E i tbM htbM arg2 harg2 arg3 harg3 arg4 harg4 where
  inv := inv (F := F) 𝒱 c bd i arg2 harg2 arg3 harg3 arg4 harg4 xt X2 X3 hwL G4
  step k acc := by
    iintro ⟨HT, HR2, HR3, ⟨%f4, HW4, %h4⟩⟩
    iapply (wp_wand_r Idealize.ShloMosaic.frame (wpE (defs₀ (F := F)) 𝒱 (c : Thread nD τ) bd) E)
    isplitl [HT HR2 HR3 HW4]
    · iapply ((trip (F := F) 𝒱 c bd i arg2 harg2 arg3 harg3 arg4 harg4 xt X2 X3 k (hwL k)).2 E f4)
      isplitl [HT]; · iexact HT
      isplitl [HR2]; · iexact HR2
      isplitl [HR3]; · iexact HR3
      iexact HW4
    · iintro %_ ⟨HT, HR2, HR3, HW4⟩
      isplitl [HT]; · iexact HT
      isplitl [HR2]; · iexact HR2
      isplitl [HR3]; · iexact HR3
      rw [pb_succ]
      iexists _; isplitl [HW4]; · iexact HW4
      ipureintro; rw [h4, ← View.writes_append]

end Cert.KernelIdeal.Hand

end
-- ==== Proof.KI.Run.lean ====
/-
  The whole body at a grid point, run once.

  The body is the eight-trip loop and nothing else.  Holding the sample block and the weight table at their contents, the
  result block at any contents and the table at half share, and given that every word the trips read indexes a row of the
  weight table, the body runs to its end holding the inputs and the table as they were and the result block overwritten by
  the trips' stores, which are the witness the run finds.
-/
import proofs.«417265_j75608604279341_3_alg».proof.Proof.KI.Loop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The pieces the body's stores leave in the result block (last first), with the proof that the body runs as described. -/
noncomputable def kernelRun (c : Dev nD) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (x0 : Vec F S8x272x1024 .f32) (w0 : Vec F S16x272x272 .bf16) (xt : TbBuf (F := F) c tbM)
    (hwL : ∀ k : Fin k0_t1_loop.trips, k0_chk1 (wordAt c xt i k)) :
    { L1 : List (View.Piece (Elt F) S8x272x1024 .f32) //
      ∀ (E : Set ℕ) (K : PUnit → sProp 𝕄),
        iprop(owns (c : Thread nD τ) arg2 fullShare x0 ∗ owns (c : Thread nD τ) arg3 fullShare w0 ∗ (∃ d, owns (c : Thread nD τ) arg4 fullShare d) ∗ tbPt c tbM xt
            ∗ (iprop(owns (c : Thread nD τ) arg2 fullShare x0 ∗ owns (c : Thread nD τ) arg3 fullShare w0
                ∗ (∃ f, arg4.view.loc (c : Thread nD τ) ↦[arg4.view.set]{fullShare} arg4.view.writes (Elt F) f L1) ∗ tbPt c tbM xt) -∗ K ⟨⟩))
          ⊢ wp frame (wpE (defs₀ (F := F)) Variants.none c none) E (cc0__moe_kernel i tbM htbM arg2 harg2 arg3 harg3 arg4 harg4) K } := by
  refine ⟨?_, fun E K => ?run⟩
  case run =>
    simp only [cc0__moe_kernel_eq_skeleton]; unfold cc0__moe_kernel_skel
    unfold owns
    iintro ⟨⟨%f2, %hf2, H2⟩, ⟨%f3, %hf3, H3⟩, ⟨%d4, %f4, -, H4⟩, HT, Hk⟩
    obtain rfl := harg2.eq_unread hf2
    obtain rfl := harg3.eq_unread hf3
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    iexact HT

end Cert.KernelIdeal.Hand

end
-- ==== Proof.KI.Frame.lean ====
/-
  The region's run: the proof data, the body at every grid point, the launch, and the frame.

  The pieces the body's run leaves in the result block are eight slabs along its first axis, one per trip, so they tile the
  block: whatever the block held before, after the body it holds those pieces' contents.  The proof data say, at every grid
  point: the sample window holds its block of the sample array, the weight window the whole converted table, the result
  window what the body's run leaves given those two and the table.  The body's obligation at a point is then the run at
  that point's staging buffers; the launch theorem for a region with a prefetched table, after a prefix of host operations,
  turns the obligation into a run of the whole program whose final memory has the result array assembled from the blocks
  written back and every other buffer as the region found it.  All of it holds under one hypothesis on the table: that every
  word a trip reads, at every point, indexes a row of the weight table.
-/
import proofs.«417265_j75608604279341_3_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The hypothesis on the table: at every grid point, every word a trip reads indexes a row of the weight table. -/
def Hyps : Prop :=
  ∀ (c : Dev nD) (t : Fin (cfgM m).N) (k : Fin k0_t1_loop.trips), k0_chk1 (wordAt c (tbl m 0) (grid0.coords t) k)

/-- One staging buffer of the result window, through which its contents are stated (the choice does not matter). -/
abbrev VO : View sig .tc .vmem S8x272x1024 .f32 := (Memref.whole cc0_stg2_0 : Memref sig .tc .vmem S8x272x1024 .f32).view

/-- The run's pieces are eight slabs of extent 1 × 272 × 1024 at the first-axis offsets 0, …, 7: they tile the block. -/
theorem cover (c : Dev nD) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (x0 : Vec F S8x272x1024 .f32) (w0 : Vec F S16x272x272 .bf16) (xt : TbBuf (F := F) c tbM)
    (hwL : ∀ k : Fin k0_t1_loop.trips, k0_chk1 (wordAt c xt i k)) (y : S8x272x1024.Idx) :
    ∃ pc ∈ (kernelRun c i arg2 harg2 arg3 harg3 arg4 harg4 x0 w0 xt hwL).1, y ∈ pc.1.set :=
  View.cover_of_tiledL (kernelRun c i arg2 harg2 arg3 harg3 arg4 harg4 x0 w0 xt hwL).1 S1x272x1024.size (by sl_kernel_rfl) y

/-- What the run leaves in the result block: its pieces read back. -/
def outOf (c : Dev nD) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (x0 : Vec F S8x272x1024 .f32) (w0 : Vec F S16x272x272 .bf16) (xt : TbBuf (F := F) c tbM)
    (hwL : ∀ k : Fin k0_t1_loop.trips, k0_chk1 (wordAt c xt i k)) : Vec F S8x272x1024 .f32 :=
  VO.read (Elt F) (VO.writes (Elt F) VO.junk (kernelRun c i arg2 harg2 arg3 harg3 arg4 harg4 x0 w0 xt hwL).1)

/-- What the result window's staging buffer holds after the body at point t. -/
def outsAt (hH : Hyps m) (c : Dev nD) (t : Fin (cfgM m).N) : Vec F S8x272x1024 .f32 :=
  outOf c (grid0.coords t) (ms0 m t) (hs0 m t) (ms1 m t) (hs1 m t) (ms2 m t) (hs2 m t) (iblk m c 0 t) (iblk m c 1 t) (tbl m 0) (hH c t)

/-! ## The proof data -/

/-- The arrays as the region finds them; after the body at point t each input's buffer at its block and the result's at
    outsAt; the invariant is the scratch the body may use freely together with the table's half share; nothing owed. -/
def dats (hH : Hyps m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => (outsAt m hH c t)
  Φ _ := iprop(Pipeline.ΦA spec0 c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after0 (hH : Hyps m) (c : Dev nD) (t : Fin (cfgM m).N) : (dats m hH 0 c).after 0 t = iblk m c 0 t := by dsimp only [dats]; try rfl
theorem after1 (hH : Hyps m) (c : Dev nD) (t : Fin (cfgM m).N) : (dats m hH 0 c).after 1 t = iblk m c 1 t := by dsimp only [dats]; try rfl
theorem after2 (hH : Hyps m) (c : Dev nD) (t : Fin (cfgM m).N) : (dats m hH 0 c).after 2 t = (outsAt m hH c t) := by dsimp only [dats]; try rfl

theorem before0 (hH : Hyps m) (c : Dev nD) (t : Fin (cfgM m).N) (d) : (dats m hH 0 c).before 0 t d = iblk m c 0 t :=
  before0_of m (dats m hH 0 c) (A_eq m hH c 0) (after0 m hH c) t d
theorem before1 (hH : Hyps m) (c : Dev nD) (t : Fin (cfgM m).N) (d) : (dats m hH 0 c).before 1 t d = iblk m c 1 t :=
  before1_of m (dats m hH 0 c) (A_eq m hH c 1) (after1 m hH c) t d

/-! ## The body obligation, at a generic point -/

/-- What the body is called with at point t, the windows one by one, -/
def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0 m t) fullShare ((dats m hH 0 c).before 0 t d))
    ∗ (∃ d, owns (c : Thread nD τ) (ms1 m t) fullShare ((dats m hH 0 c).before 1 t d))
    ∗ (∃ d, owns (c : Thread nD τ) (ms2 m t) fullShare ((dats m hH 0 c).before 2 t d)))

/-- and what it returns. -/
def bodyPost (hH : Hyps m) (c : Dev nD) (t : Fin (cfgM m).N) : sProp 𝕄 :=
  iprop((dats m hH 0 c).Φ t.succ ∗ (dats m hH 0 c).owesAt () t.succ
    ∗ owns (c : Thread nD τ) (ms0 m t) fullShare ((dats m hH 0 c).after 0 t)
    ∗ owns (c : Thread nD τ) (ms1 m t) fullShare ((dats m hH 0 c).after 1 t)
    ∗ owns (c : Thread nD τ) (ms2 m t) fullShare ((dats m hH 0 c).after 2 t))

/-- The body at any point: the inputs' buffers hold their blocks, so the run applies; the invariant passes through. -/
theorem sound_body (hH : Hyps m) (c : Dev nD) (t : Fin (cfgM m).N) :
    bodyPre m hH c t ⊢ wp frame (wpE (defs₀ (F := F)) Variants.none c none) Set.univ (bodyAt m t) (fun _ => bodyPost m hH c t) := by
  unfold bodyPre bodyPost bodyAt
  simp only [before0, before1]
  rw [show (dats m hH 0 c).Φ t.succ = (dats m hH 0 c).Φ t.castSucc from rfl,
    show (dats m hH 0 c).owesAt () t.succ = (dats m hH 0 c).owesAt () t.castSucc from rfl,
    after0, after1, after2]
  rw [show (dats m hH 0 c).Φ t.castSucc = iprop(Pipeline.ΦA spec0 c ∗ Pipeline.ΦT pre0 (tbl m) c) from rfl, PhiT_eq]
  unfold outsAt
  unfold outOf
  iintro ⟨⟨HΦ, HT⟩, Ho, ⟨%d0, H0⟩, ⟨%d1, H1⟩, ⟨%d2, H2⟩⟩
  iapply ((kernelRun c (grid0.coords t) _ _ _ _ _ _ (iblk m c 0 t) (iblk m c 1 t) (tbl m 0) (hH c t)).2 Set.univ _)
  isplitl [H0]; · iexact H0
  isplitl [H1]; · iexact H1
  isplitl [H2]; · iexists _; iexact H2
  isplitl [HT]; · iexact HT
  iintro ⟨H0, H1, ⟨%e2, H2⟩, HT⟩
  isplitl [HΦ HT]
  · isplitl [HΦ]
    · iexact HΦ
    iexact HT
  isplitl [Ho]; · iexact Ho
  isplitl [H0]; · iexact H0
  isplitl [H1]; · iexact H1
  unfold owns; iexists _; isplitr
  swap; · iexact H2
  ipureintro; exact View.read_writes_of_cover _ _ _ _ _ (cover c _ _ _ _ _ _ _ _ _ _ _)

/-- The library's body obligation, at every point. -/
theorem body_obligation (hH : Hyps m) (c : Dev nD) : BodyObligation (dats (F := F) m hH 0 c) (defs₀ (F := F)) Variants.none () Set.univ := fun t => by
  rw [bigSep_W0, bigSep_W0]
  exact sound_body m hH c t

/-! ## The run and the frame -/

set_option backward.isDefEq.respectTransparency.types false in
/-- Every weakly fair execution of the program terminates, and its final memory has every window's array at what the
    library computes from the proof data and every other unscoped buffer as the region found it. -/
theorem run_main (hH : Hyps m) : θ_run defs (onTc (τ := τ) (main (F := F))) (s₀ m ρ) (Pipeline.FramePost (Pipeline.pin pcfgs fun _ => adm m) (dats m hH) 0 (V m)) :=
  Pipeline.θ_run_frameP pcfgs (fun _ => adm m) (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hpf := V_pre m)
    (hΦ := fun _ _ => rfl)

/-- The frame: the program runs, and the three argument arrays end as launched. -/
theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m hH) (A_eq m hH) (run_main m ρ hH)

end Cert.KernelIdeal.Hand

end
-- ==== Proof.KI.Table.lean ====
/-
  The table of clipped labels, and the words the body reads off it.

  Before the region runs, the program clips every subject label into [0, 15]: the signed maximum with 0, then the signed
  minimum with 15, entry by entry on the vector of 128 labels.  The clipped vector is the region's table.  Trip k of grid
  point t reads ONE word of it, the entry 8·t + k, and loads the row of the weight table that word names.

  Three things are shown.  (1) The table the region finds is the clipped label vector, so its entry b is label b clipped.
  (2) A read of one entry through the whole table's view at offset 8·t + k is the table's entry there; on the one-axis
  grid of sixteen points, point t has coordinate t.  (3) For every word v, the clip of v read unsigned is v read signed
  and clipped into [0, 15]: it is below 16, so the row it names lies inside the table of sixteen matrices, and it is the
  specification's row of v.  Together: every word the body reads passes the side condition its trip assumes, and the row
  the trip loads is the specification's row of label 8·t + k.
-/
import proofs.«417265_j75608604279341_3_alg».proof.Proof.KI.Loop
import proofs.«417265_j75608604279341_3_alg».proof.Proof.Spec
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The table: the labels clipped into [0, 15] -/

/-- A label clipped into [0, 15] as a signed integer: the maximum with 0, then the minimum with 15. -/
def clipW (v : BitVec 32) : BitVec 32 := IntOp.minsi 15#32 (IntOp.maxsi 0#32 v)

/-- The label vector clipped entry by entry, as the host operations compute it. -/
def clipV (x : IVec S128 32) : IVec S128 32 :=
  minsi (broadcastInDim S128 ![] bcast_S_S128 (constantI S_ 32 15#32))
    (maxsi (broadcastInDim S128 ![] bcast_S_S128 (constantI S_ 32 0#32)) x)

theorem clipV_apply (x : IVec S128 32) (b : Fin 128) : clipV x (ix1 b) = clipW (x (ix1 b)) := rfl

/-- The table the region finds is the clipped label vector. -/
theorem tbl_eq (m : (ℓ : Loc nD τ sig) → Buf (Elt F) ℓ) :
    (tbl (F := F) m 0 : IVec S128 32) = clipV (m ((0 : Dev nD).tc.loc main_arg1)) := by
  dsimp only [tbl, V]
  simp only [hostOps0, hostOps0_1, hostOps0_2, List.flatten_cons, List.flatten_nil, List.append_nil, List.cons_append,
    List.nil_append]
  after_results
  rfl

/-- Entry b of the table is label b clipped. -/
theorem tbl_apply (m : (ℓ : Loc nD τ sig) → Buf (Elt F) ℓ) (b : Fin 128) :
    (tbl (F := F) m 0 : IVec S128 32) (ix1 b) = clipW (m ((0 : Dev nD).tc.loc main_arg1) (ix1 b)) := by
  rw [tbl_eq, clipV_apply]

/-! ## The word a trip reads -/

theorem point_lt (t : Fin grid0.N) : t.val < 16 := Nat.lt_of_lt_of_le t.isLt (Nat.le_of_eq N_0)

theorem trip_lt (k : Fin k0_t1_loop.trips) : k.val < 8 := Nat.lt_of_lt_of_le k.isLt k0_t1_abs.2.1

/-- The sample trip k of point t works on: 8·t + k, one of the 128. -/
abbrev lab (t : Fin grid0.N) (k : Fin k0_t1_loop.trips) : Fin 128 :=
  ⟨8 * t.val + k.val, by have := point_lt t; have := trip_lt k; omega⟩

/-- On the one-axis grid of sixteen points, point t has coordinate t. -/
theorem coord_val (t : Fin grid0.N) : ((grid0.coords t) 0).val = t.val := by
  show t.val / grid0.stride 0 % grid0.bound 0 = t.val
  rw [show grid0.stride 0 = 1 from by decide, show grid0.bound 0 = 16 from rfl, Nat.div_one,
    Nat.mod_eq_of_lt (point_lt t)]

/-- A one-entry rectangle of a vector of 128 at offset n has the one index n. -/
theorem unit_idx (off : Fin 1 → Nat) (inb : ∀ a, off a + S1.size a ≤ S128.size a) (h1 : 0 < S1.numel) (n : Fin 128)
    (hn : off 0 = n.val) :
    (Rect.unit (s := S128) off S1.size inb).toLoadRect.idx (Shape.Idx.first h1) = ix1 n := by
  funext a
  match a with
  | ⟨0, _⟩ =>
    refine Fin.ext ?_
    show off 0 + 1 * 0 = n.val
    omega

/-- The word trip k reads at coordinates i, off any contents of the table: the entry 8·i + k. -/
theorem word_var (c : Dev nD) (xt : TbBuf (F := F) c tbM) (i : grid0.Coords) (k : Fin k0_t1_loop.trips) (n : Fin 128)
    (hn : 8 * (i 0).val + k.val = n.val) :
    wordAt c xt i k = (xt : IVec S128 32) (ix1 n) :=
  congrArg (xt : IVec S128 32) (unit_idx _ _ _ n (by rw [k0_off1_eq]; exact hn))

/-- The word trip k of point t reads off the table the region finds: entry 8·t + k of it. -/
theorem word_eq (m : (ℓ : Loc nD τ sig) → Buf (Elt F) ℓ) (c : Dev nD) (t : Fin (cfgM m).N) (k : Fin k0_t1_loop.trips) :
    wordAt c (tbl (F := F) m 0) (grid0.coords t) k = (tbl (F := F) m 0 : IVec S128 32) (ix1 (lab t k)) :=
  word_var c (tbl m 0) (grid0.coords t) k (lab t k) (by rw [coord_val])

/-! ## A clipped label as a row of the weight table -/

/-- A nonnegative signed reading is the unsigned one. -/
theorem toNat_of_nonneg (v : BitVec 32) (h : 0 ≤ v.toInt) : v.toNat = v.toInt.toNat := by
  have hv := v.isLt
  rw [BitVec.toInt_eq_toNat_cond] at h ⊢
  split at h <;> split <;> omega

/-- The signed maximum with 0, read signed. -/
theorem maxsi_zero_toInt (v : BitVec 32) : (IntOp.maxsi 0#32 v).toInt = max 0 v.toInt := by
  have h0 : (0#32 : BitVec 32).toInt = 0 := by decide
  unfold IntOp.maxsi
  split
  · rename_i h
    have h1 := BitVec.slt_iff_toInt_lt.1 h
    rw [h0] at h1 ⊢
    omega
  · rename_i h
    have h1 : ¬ v.toInt < (0#32 : BitVec 32).toInt := fun hh => h (BitVec.slt_iff_toInt_lt.2 hh)
    rw [h0] at h1
    omega

/-- The signed minimum with 15, read signed. -/
theorem minsi_fifteen_toInt (u : BitVec 32) : (IntOp.minsi 15#32 u).toInt = min 15 u.toInt := by
  have h15 : (15#32 : BitVec 32).toInt = 15 := by decide
  unfold IntOp.minsi
  split
  · rename_i h
    have h1 := BitVec.slt_iff_toInt_lt.1 h
    rw [h15] at h1 ⊢
    omega
  · rename_i h
    have h1 : ¬ (15#32 : BitVec 32).toInt < u.toInt := fun hh => h (BitVec.slt_iff_toInt_lt.2 hh)
    rw [h15] at h1
    omega

/-- The clipped label, read unsigned, is the label read signed and clipped into [0, 15]. -/
theorem clipW_toNat (v : BitVec 32) : (clipW v).toNat = min v.toInt.toNat 15 := by
  have h : (clipW v).toInt = min 15 (max 0 v.toInt) := by
    unfold clipW
    rw [minsi_fifteen_toInt, maxsi_zero_toInt]
  rw [toNat_of_nonneg (clipW v) (by omega), h]
  omega

/-- The row a clipped label names lies inside the table of sixteen: the side condition a trip takes of its word. -/
theorem chk_clip (v : BitVec 32) : k0_chk1 (clipW v) := by
  have h := clipW_toNat v
  intro a
  match a with
  | ⟨0, _⟩ =>
    show (clipW v).toNat + 1 ≤ 16
    omega
  | ⟨1, _⟩ => exact Nat.le_refl _
  | ⟨2, _⟩ => exact Nat.le_refl _

/-- The row a clipped label names is the specification's row of the label. -/
theorem row_clip (v : BitVec 32) : (k0_off2 (clipW v)) 0 = (Cert.Spec.rowOf v).val := clipW_toNat v

/-! ## The two facts about the words the body reads -/

/-- Every word the body reads off the table names a row inside the weight table. -/
theorem hyps (m : (ℓ : Loc nD τ sig) → Buf (Elt F) ℓ) :
    ∀ (c : Dev nD) (t : Fin (cfgM m).N) (k : Fin k0_t1_loop.trips), k0_chk1 (wordAt c (tbl (F := F) m 0) (grid0.coords t) k) := by
  intro c t k
  rw [word_eq, tbl_apply]
  exact chk_clip _

/-- The row trip k of point t loads is the specification's row of label 8·t + k. -/
theorem row_eq (m : (ℓ : Loc nD τ sig) → Buf (Elt F) ℓ) (c : Dev nD) (t : Fin (cfgM m).N) (k : Fin k0_t1_loop.trips) :
    (k0_off2 (wordAt c (tbl (F := F) m 0) (grid0.coords t) k)) 0
      = (Cert.Spec.rowOf (m ((0 : Dev nD).tc.loc main_arg1) (ix1 (lab t k)))).val := by
  rw [word_eq, tbl_apply]
  exact row_clip _

end Cert.KernelIdeal.Hand
end
-- ==== Proof.KI.Pieces.lean ====
/-
  The pieces the body's run leaves in the result block, one by one.

  The run's witness is the list of the eight trips' pieces.  Trip k's piece is slab k of the block — the rectangle of extent
  1 × 272 × 1024 at first-axis offset k — and its payload is the body's product of two loads: of the weight window's
  contents at the row the trip's table word names, and of the sample window's contents at slab k.  So every piece of the
  run is, for some trip k, that slab with that payload, stated over the windows' contents.
-/
import proofs.«417265_j75608604279341_3_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The loop makes eight trips. -/
theorem trips_eq : k0_t1_loop.trips = 8 := by decide

/-- Trip k's one piece: slab k, the product of the loads the trip makes. -/
theorem tripL_eq (𝒱 : Variants) (c : Dev nD) (bd : Option 𝒱.V) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty) (k : Fin k0_t1_loop.trips)
    (hw : k0_chk1 (wordAt c xt i k)) :
    tripL (F := F) 𝒱 c bd i arg2 harg2 arg3 harg3 arg4 harg4 xt X2 X3 k hw
      = [⟨Rect.unit (s := S8x272x1024) (k0_off3 k) S1x272x1024.size (k0_off3_inb k),
          k0_pay1 (arg3.view.readAt (Elt F) (Rect.unit (s := S16x272x272) (k0_off2 (wordAt c xt i k)) S1x272x272.size (k0_off2_inb _ hw)).toLoadRect X3)
                  (arg2.view.readAt (Elt F) (Rect.unit (s := S8x272x1024) (k0_off3 k) S1x272x1024.size (k0_off3_inb k)).toLoadRect X2)⟩] := by
  unfold tripL trip
  rfl

/-- Every piece of the trips before n is some trip's piece. -/
theorem mem_pb (𝒱 : Variants) (c : Dev nD) (bd : Option 𝒱.V) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (xt : TbBuf (F := F) c tbM) (X2 : BufTy.Contents (Elt F) arg2.view.ty) (X3 : BufTy.Contents (Elt F) arg3.view.ty)
    (hwL : ∀ k : Fin k0_t1_loop.trips, k0_chk1 (wordAt c xt i k)) (p : View.Piece (Elt F) S8x272x1024 .f32) :
    ∀ n : ℕ, p ∈ pb (F := F) 𝒱 c bd i arg2 harg2 arg3 harg3 arg4 harg4 xt X2 X3 hwL n →
      ∃ k : Fin k0_t1_loop.trips, p ∈ tripL (F := F) 𝒱 c bd i arg2 harg2 arg3 harg3 arg4 harg4 xt X2 X3 k (hwL k)
  | 0, hp => by rw [pb.eq_1] at hp; exact absurd hp List.not_mem_nil
  | n + 1, hp => by
    rw [pb.eq_2] at hp
    unfold pbStep at hp
    by_cases h : n < k0_t1_loop.trips
    · rw [dif_pos h] at hp
      rcases List.mem_append.mp hp with h1 | h1
      · exact ⟨⟨n, h⟩, h1⟩
      · exact mem_pb 𝒱 c bd i arg2 harg2 arg3 harg3 arg4 harg4 xt X2 X3 hwL p n h1
    · rw [dif_neg h] at hp
      exact mem_pb 𝒱 c bd i arg2 harg2 arg3 harg3 arg4 harg4 xt X2 X3 hwL p n hp

/-- The run's pieces are those of all the trips. -/
theorem run_pieces (c : Dev nD) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (x0 : Vec F S8x272x1024 .f32) (w0 : Vec F S16x272x272 .bf16) (xt : TbBuf (F := F) c tbM)
    (hwL : ∀ k : Fin k0_t1_loop.trips, k0_chk1 (wordAt c xt i k)) :
    (kernelRun c i arg2 harg2 arg3 harg3 arg4 harg4 x0 w0 xt hwL).1
      = pb (F := F) Variants.none c none i arg2 harg2 arg3 harg3 arg4 harg4 xt (harg2.unread x0) (harg3.unread w0) hwL k0_t1_loop.trips := by
  unfold kernelRun
  rfl

/-- What trip k stores, over the windows' contents: the product of the weight window's row named by the trip's word and of
    slab k of the sample window. -/
def slabOf (c : Dev nD) (i : grid0.Coords) (x0 : Vec F S8x272x1024 .f32) (w0 : Vec F S16x272x272 .bf16) (xt : TbBuf (F := F) c tbM)
    (k : Fin k0_t1_loop.trips) (hw : k0_chk1 (wordAt c xt i k)) : Vec F S1x272x1024 .f32 :=
  k0_pay1 (View.ld w0 (Rect.unit (s := S16x272x272) (k0_off2 (wordAt c xt i k)) S1x272x272.size (k0_off2_inb _ hw)))
          (View.ld x0 (Rect.unit (s := S8x272x1024) (k0_off3 k) S1x272x1024.size (k0_off3_inb k)))

/-- Every piece the body's run leaves is, for some trip k, slab k of the block with that trip's product as payload. -/
theorem run_piece_cases (c : Dev nD) (i : grid0.Coords) (arg2 : Memref sig .tc .vmem S8x272x1024 .f32) (harg2 : arg2.IsWhole) (arg3 : Memref sig .tc .vmem S16x272x272 .bf16) (harg3 : arg3.IsWhole) (arg4 : Memref sig .tc .vmem S8x272x1024 .f32) (harg4 : arg4.IsWhole)
    (x0 : Vec F S8x272x1024 .f32) (w0 : Vec F S16x272x272 .bf16) (xt : TbBuf (F := F) c tbM)
    (hwL : ∀ k : Fin k0_t1_loop.trips, k0_chk1 (wordAt c xt i k)) (p : View.Piece (Elt F) S8x272x1024 .f32)
    (hp : p ∈ (kernelRun c i arg2 harg2 arg3 harg3 arg4 harg4 x0 w0 xt hwL).1) :
    ∃ k : Fin k0_t1_loop.trips,
      p = ⟨Rect.unit (s := S8x272x1024) (k0_off3 k) S1x272x1024.size (k0_off3_inb k), slabOf c i x0 w0 xt k (hwL k)⟩ := by
  rw [run_pieces] at hp
  obtain ⟨k, hk⟩ := mem_pb _ c _ i arg2 harg2 arg3 harg3 arg4 harg4 xt _ _ hwL p _ hp
  rw [tripL_eq, List.mem_singleton] at hk
  refine ⟨k, hk.trans ?_⟩
  unfold slabOf
  rw [View.readAt_eq_ld, View.readAt_eq_ld, harg2.read_unread, harg3.read_unread]

end Cert.KernelIdeal.Hand

end
-- ==== Proof.KI.Blocks.lean ====
/-
  The blocks of the region's three windows, read off the memory the region finds.

  The grid has sixteen points.  At point t the sample window's block index is (t, 0, 0) with block extents
  [8, 272, 1024], so entry (k, cc, tt) of its block is entry (8t + k, cc, tt) of the sample array: the block holds
  samples 8t, ..., 8t + 7.  The result window has the same index map and extents, so its block at point t sits at the
  same place of the result array; the block index changes from each point to the next, so every point writes its block
  back, and the sixteen blocks tile the array: sample s lies in the block of point s / 8.  The weight window's block
  index is (0, 0, 0) with the array's own extents [16, 272, 272]: its one block is the whole converted table.

  The converted table is written by one host operation, the change of float format of the weight table; on the
  extended reals that is the identity, and no earlier host operation writes the weight table, so the region finds the
  converted table equal to the weight table as launched.

  Every fact about the index maps is proved at an arbitrary admissible contents of the prefetched table (no index map
  reads the table) and only then read at the contents the region finds.
-/
import proofs.«417265_j75608604279341_3_alg».proof.Proof.KI.Frame
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The converted weight table, on the extended reals -/

/-- The region finds the converted table equal to the weight table as launched: the one host operation that writes it
    is a change of float format, the identity on the extended reals, and no earlier operation writes the weight table. -/
theorem V_w (m : (ℓ : Loc nD τ sig) → Buf (Elt Ideal) ℓ) (c : Dev nD) :
    (V m c main_v1 : S16x272x272.Idx → EReal) = (m ((c : Thread nD τ).loc main_arg2) : S16x272x272.Idx → EReal) := by
  dsimp only [V]
  simp only [hostOps0, hostOps0_1, hostOps0_2, List.flatten_cons, List.flatten_nil, List.append_nil, List.cons_append,
    List.nil_append, StableHlo.TRef.unary, StableHlo.TRef.binary]
  after_results
  rfl

/-! ## The index maps, at any admissible contents of the table -/

/-- The grid has sixteen points, whatever the table holds. -/
theorem N_eq (a : (pcfg0 (F := F)).Adm) : (cfg0 a).N = 16 := N_0

/-- The sample window's block index at point t is (t, 0, 0). -/
theorem idx0 (a : (pcfg0 (F := F)).Adm) : ∀ t : Fin (cfg0 a).N, ((cfg0 a).win 0).index t = ![t.val, 0, 0] :=
  (by decide +kernel : ∀ t : Fin grid0.N, cc0_transform_0 (grid0.coords t) = ![t.val, 0, 0])

/-- The weight window's block index is (0, 0, 0) at every point. -/
theorem idx1 (a : (pcfg0 (F := F)).Adm) : ∀ t : Fin (cfg0 a).N, ((cfg0 a).win 1).index t = ![0, 0, 0] :=
  (by decide +kernel : ∀ t : Fin grid0.N, cc0_transform_1 (grid0.coords t) = ![0, 0, 0])

/-- The result window's block index at point t is (t, 0, 0). -/
theorem idx2 (a : (pcfg0 (F := F)).Adm) : ∀ t : Fin (cfg0 a).N, ((cfg0 a).win 2).index t = ![t.val, 0, 0] :=
  (by decide +kernel : ∀ t : Fin grid0.N, cc0_transform_2 (grid0.coords t) = ![t.val, 0, 0])

/-- The result window writes its block back at every point: the block index changes from each point to the next. -/
theorem flush2 (a : (pcfg0 (F := F)).Adm) : ∀ t : Fin (cfg0 a).N, ((cfg0 a).win 2).flush t = true :=
  (by decide +kernel : ∀ t : Fin grid0.N, Pipeline.Window.flushOf grid0 true cc0_transform_2 t = true)

/-! ## Where a block's indices sit in its array -/

/-- Entry (k, o, tt) of the result window's block at point t is entry (8t + k, o, tt) of the result array. -/
theorem emb2_at (a : (pcfg0 (F := F)).Adm) (t : Fin (cfg0 a).N) (k : Fin 8) (o : Fin 272) (tt : Fin 1024) :
    (((cfg0 a).win 2).blk t).view.emb (ix3 k o tt)
      = ix3 (⟨8 * t.val + k.val, by have := t.isLt; have := N_eq a; have := k.isLt; omega⟩ : Fin 128) o tt := by
  have e := idx2 a t
  funext b; apply Fin.ext
  match b with
  | ⟨0, _⟩ =>
    show ((cfg0 a).win 2).index t (0 : Fin 3) * 8 + 1 * k.val = 8 * t.val + k.val
    rw [e]; show t.val * 8 + 1 * k.val = 8 * t.val + k.val; omega
  | ⟨1, _⟩ =>
    show ((cfg0 a).win 2).index t (1 : Fin 3) * 272 + 1 * o.val = o.val
    rw [e]; show 0 * 272 + 1 * o.val = o.val; omega
  | ⟨2, _⟩ =>
    show ((cfg0 a).win 2).index t (2 : Fin 3) * 1024 + 1 * tt.val = tt.val
    rw [e]; show 0 * 1024 + 1 * tt.val = tt.val; omega

/-- Entry (k, cc, tt) of the sample window's block at point t is entry (8t + k, cc, tt) of the sample array. -/
theorem emb0_at (a : (pcfg0 (F := F)).Adm) (t : Fin (cfg0 a).N) (k : Fin 8) (cc : Fin 272) (tt : Fin 1024) :
    (((cfg0 a).win 0).blk t).view.emb (ix3 k cc tt)
      = ix3 (⟨8 * t.val + k.val, by have := t.isLt; have := N_eq a; have := k.isLt; omega⟩ : Fin 128) cc tt := by
  have e := idx0 a t
  funext b; apply Fin.ext
  match b with
  | ⟨0, _⟩ =>
    show ((cfg0 a).win 0).index t (0 : Fin 3) * 8 + 1 * k.val = 8 * t.val + k.val
    rw [e]; show t.val * 8 + 1 * k.val = 8 * t.val + k.val; omega
  | ⟨1, _⟩ =>
    show ((cfg0 a).win 0).index t (1 : Fin 3) * 272 + 1 * cc.val = cc.val
    rw [e]; show 0 * 272 + 1 * cc.val = cc.val; omega
  | ⟨2, _⟩ =>
    show ((cfg0 a).win 0).index t (2 : Fin 3) * 1024 + 1 * tt.val = tt.val
    rw [e]; show 0 * 1024 + 1 * tt.val = tt.val; omega

/-- The weight window's one block is the whole table: an index of the block is the same index of the array. -/
theorem emb1_at (a : (pcfg0 (F := F)).Adm) (t : Fin (cfg0 a).N) (y : S16x272x272.Idx) :
    (((cfg0 a).win 1).blk t).view.emb y = y := by
  have e := idx1 a t
  funext b; apply Fin.ext
  match b with
  | ⟨0, _⟩ =>
    show ((cfg0 a).win 1).index t (0 : Fin 3) * 16 + 1 * (y 0).val = (y 0).val
    rw [e]; show 0 * 16 + 1 * (y 0).val = (y 0).val; omega
  | ⟨1, _⟩ =>
    show ((cfg0 a).win 1).index t (1 : Fin 3) * 272 + 1 * (y 1).val = (y 1).val
    rw [e]; show 0 * 272 + 1 * (y 1).val = (y 1).val; omega
  | ⟨2, _⟩ =>
    show ((cfg0 a).win 1).index t (2 : Fin 3) * 272 + 1 * (y 2).val = (y 2).val
    rw [e]; show 0 * 272 + 1 * (y 2).val = (y 2).val; omega

/-! ## The blocks the region reads, off the memory it finds -/

variable (m : (ℓ : Loc nD τ sig) → Buf (Elt F) ℓ)

/-- The weight window's block, at every point, is the whole converted table. -/
theorem wblk_eq (c : Dev nD) (t : Fin (cfgM m).N) :
    (iblk m c 1 t : S16x272x272.Idx → Elt F .bf16) = V m c main_v1 := by
  funext y
  show V m c main_v1 ((((cfgM m).win 1).blk t).view.emb y) = V m c main_v1 y
  exact congrArg (V m c main_v1) (emb1_at (adm m) t y)

/-- The sample window's block at point t, entry (k, cc, tt), is sample 8t + k of the array at (cc, tt). -/
theorem xblk_apply (c : Dev nD) (t : Fin (cfgM m).N) (k : Fin 8) (cc : Fin 272) (tt : Fin 1024) :
    iblk m c 0 t (ix3 k cc tt)
      = V m c main_arg0 (ix3 (⟨8 * t.val + k.val, by have := t.isLt; have hN : (cfgM m).N = 16 := N_eq (adm m); have := k.isLt; omega⟩ : Fin 128) cc tt) := by
  show V m c main_arg0 ((((cfgM m).win 0).blk t).view.emb (ix3 k cc tt)) = _
  exact congrArg (V m c main_arg0) (emb0_at (adm m) t k cc tt)

/-! ## The result window's blocks tile the result array -/

/-- Entry (k, o, tt) of the result window's block at point t is entry (8t + k, o, tt) of the result array. -/
theorem emb2 (t : Fin (cfgM m).N) (k : Fin 8) (o : Fin 272) (tt : Fin 1024) :
    (((cfgM m).win 2).blk t).view.emb (ix3 k o tt)
      = ix3 (⟨8 * t.val + k.val, by have := t.isLt; have hN : (cfgM m).N = 16 := N_eq (adm m); have := k.isLt; omega⟩ : Fin 128) o tt :=
  emb2_at (adm m) t k o tt

/-- An index of the result array is in point t's block iff each coordinate is in the block's range on its axis. -/
theorem mem_blk2 (a : (pcfg0 (F := F)).Adm) (t : Fin (cfg0 a).N) (i : S128x272x1024.Idx) :
    i ∈ (((cfg0 a).win 2).blk t).view.set ↔ ∀ b : Fin 3, ((cfg0 a).win 2).index t b * S8x272x1024.size b ≤ (i b).val
      ∧ (i b).val < ((cfg0 a).win 2).index t b * S8x272x1024.size b + S8x272x1024.size b := by
  have h : (((cfg0 a).win 2).blk t).view.set = (((cfg0 a).win 2).rect t).set :=
    View.set_slice_whole main_v2 (((cfg0 a).win 2).rect t)
  rw [h]
  exact Rect.mem_set_unit

/-- Every index of the result array is in the block some point writes back: sample s is in the block of point s / 8. -/
theorem covered2_at (a : (pcfg0 (F := F)).Adm) (i : S128x272x1024.Idx) :
    ∃ t : Fin (cfg0 a).N, ((cfg0 a).win 2).flush t = true ∧ i ∈ (((cfg0 a).win 2).blk t).view.set := by
  have hi0 : (i 0).val < 128 := (i 0).isLt
  have hi1 : (i 1).val < 272 := (i 1).isLt
  have hi2 : (i 2).val < 1024 := (i 2).isLt
  have hN := N_eq a
  refine ⟨⟨(i 0).val / 8, by omega⟩, flush2 a _, ?_⟩
  rw [mem_blk2]
  have e := idx2 a ⟨(i 0).val / 8, by omega⟩
  intro b
  match b with
  | ⟨0, _⟩ =>
    show ((cfg0 a).win 2).index _ (0 : Fin 3) * 8 ≤ (i 0).val ∧ (i 0).val < ((cfg0 a).win 2).index _ (0 : Fin 3) * 8 + 8
    rw [e]; show (i 0).val / 8 * 8 ≤ (i 0).val ∧ (i 0).val < (i 0).val / 8 * 8 + 8; omega
  | ⟨1, _⟩ =>
    show ((cfg0 a).win 2).index _ (1 : Fin 3) * 272 ≤ (i 1).val ∧ (i 1).val < ((cfg0 a).win 2).index _ (1 : Fin 3) * 272 + 272
    rw [e]; show 0 * 272 ≤ (i 1).val ∧ (i 1).val < 0 * 272 + 272; omega
  | ⟨2, _⟩ =>
    show ((cfg0 a).win 2).index _ (2 : Fin 3) * 1024 ≤ (i 2).val ∧ (i 2).val < ((cfg0 a).win 2).index _ (2 : Fin 3) * 1024 + 1024
    rw [e]; show 0 * 1024 ≤ (i 2).val ∧ (i 2).val < 0 * 1024 + 1024; omega

/-- The same at the table's contents as the region finds them. -/
theorem covered2 (i : S128x272x1024.Idx) :
    ∃ t : Fin (cfgM m).N, ((cfgM m).win 2).flush t = true ∧ i ∈ (((cfgM m).win 2).blk t).view.set :=
  covered2_at (adm m) i

end Cert.KernelIdeal.Hand

end
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«417265_j75608604279341_3_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.PayValue.lean ====
/-
  The kernel's payload at one entry, on the extended reals.

  One trip of the kernel takes the 272 x 272 matrix a subject label selects (read as a [1, 272, 272] block) and one
  sample (a [1, 272, 1024] block), drops the leading unit axis of each, multiplies them as a plain matrix product
  accumulated into the zero array, and puts the unit axis back.  On the extended reals a change of float format is
  the identity, so the narrowing of the sample before the product changes nothing.  Entry (0, o, t) of the result is
  therefore

      sum over c < 272 of matrix (0, o, c) * sample (0, c, t).

  The record of dimension numbers printed with the program has the six lists [1], [0], [0], [1], [], [] of the plain
  product of a 272 x 272 by a 272 x 1024 operand; its seventh field is a proof, so it is that plain record.
-/
import proofs.«417265_j75608604279341_3_alg».proof.Proof.Gen.KernelIdeal.Skeleton
import proofs.«417265_j75608604279341_3_alg».proof.Proof.LibPlainAny
import Idealize.ShloMosaic.Lib.ValueIdx
import Idealize.ShloMosaic.Lib.Pipeline.Value
import Idealize.ShloMosaic.Lib.ValueLayout

noncomputable section

namespace Cert.PayValue

open Idealize.ShloMosaic Idealize.ShloMosaic.ValueIdx

variable [Cert.KernelIdeal.Facts]

/-- The printed record of dimension numbers is the plain product's. -/
theorem dot_eq_plain :
    Cert.KernelIdeal.dot_S272x272_S272x1024_S272x1024_1_0_0_1_n_n = DotDims.plain 272 272 1024 := rfl

/-- The kernel's product into the zero array, at entry (a, j): the sum over k of W (a, k) * X (k, j). -/
theorem matmul_apply (W : FVec Ideal ⟨2, ![272, 272]⟩ .bf16) (X : FVec Ideal ⟨2, ![272, 1024]⟩ .bf16)
    (a : Fin 272) (j : Fin 1024) :
    matmul (F := Ideal) Cert.KernelIdeal.dot_S272x272_S272x1024_S272x1024_1_0_0_1_n_n none W X
        (constant (F := Ideal) ⟨2, ![272, 1024]⟩ .f32 0x00000000#32) (ix2 a j)
      = ∑ k : Fin 272, (W (ix2 a k) : EReal) * (X (ix2 k j) : EReal) := by
  rw [dot_eq_plain]
  exact Cert.LibPlainAny.matmul_plain_zero_any 272 272 1024 W X a j

/-- The payload at entry (0, o, t): row o of the selected matrix against column t of the sample. -/
theorem pay_apply (v6 : Vec Ideal Cert.KernelIdeal.S1x272x272 .bf16) (v9 : Vec Ideal Cert.KernelIdeal.S1x272x1024 .f32)
    (o : Fin 272) (t : Fin 1024) :
    Cert.KernelIdeal.Gen.k0_pay1 (F := Ideal) v6 v9 (ix3 (0 : Fin 1) o t)
      = ∑ c : Fin 272, (v6 (ix3 (0 : Fin 1) o c) : EReal) * (v9 (ix3 (0 : Fin 1) c t) : EReal) := by
  unfold Cert.KernelIdeal.Gen.k0_pay1
  refine (shapeCast_ab_1ab_apply _ _ (0 : Fin 1) o t).trans ?_
  refine (matmul_apply _ _ o t).trans ?_
  refine Finset.sum_congr rfl fun c _ => ?_
  rw [shapeCast_1ab_ab_apply, truncf_apply, shapeCast_1ab_ab_apply]

end Cert.PayValue

end
-- ==== Proof.KI.Value.lean ====
/-
  The result array of the idealized kernel, entry by entry.

  At the ideal instance a float is an extended real and a change of float format is the identity.  Trip k of grid point t
  stores, as slab k of the point's result block, the product of the weight table's row named by the clipped label of sample
  8t + k with that sample: entry (o, u) of the slab is the sum over c of W[row, o, c] · x[8t + k, c, u], where row is the
  label clipped into [0, 15].  The eight slabs fill the block, the sixteen blocks written back fill the result array, so the
  array ends holding, at every entry (b, o, u), the sum over c of W[row(idx[b]), o, c] · x[b, c, u]: the specification.
-/
import proofs.«417265_j75608604279341_3_alg».proof.Proof.KI.Pieces
import proofs.«417265_j75608604279341_3_alg».proof.Proof.KI.Table
import proofs.«417265_j75608604279341_3_alg».proof.Proof.KI.Blocks
import proofs.«417265_j75608604279341_3_alg».proof.Proof.PayValue
import proofs.«417265_j75608604279341_3_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The specification's array of the three argument arrays as launched (there is one device). -/
abbrev Gm : FVec Ideal Cert.Spec.SX .f32 :=
  Cert.Spec.G (m ((0 : Dev nD).tc.loc main_arg0)) (m ((0 : Dev nD).tc.loc main_arg1)) (m ((0 : Dev nD).tc.loc main_arg2))

/-- The condition the body assumes holds at every point and trip: the table's words are clipped labels. -/
theorem hypsH : Hyps m := hyps m

/-- Entry (o, u) of the slab trip k stores at point t is the specification's entry for sample 8t + k. -/
theorem slab_apply (c : Dev nD) (t : Fin (cfgM m).N) (k : Fin k0_t1_loop.trips) (o : Fin 272) (u : Fin 1024) :
    slabOf c (grid0.coords t) (iblk m c 0 t) (iblk m c 1 t) (tbl m 0) k (hyps m c t k) (ix3 (0 : Fin 1) o u)
      = Cert.Spec.entry (m ((0 : Dev nD).tc.loc main_arg0)) (m ((0 : Dev nD).tc.loc main_arg1)) (m ((0 : Dev nD).tc.loc main_arg2)) (lab t k) o u := by
  obtain rfl : c = 0 := Subsingleton.elim _ _
  unfold slabOf
  rw [Cert.PayValue.pay_apply]
  unfold Cert.Spec.entry
  refine Finset.sum_congr rfl fun cc _ => ?_
  have hw : (View.ld (iblk m 0 1 t) (Rect.unit (s := S16x272x272) (k0_off2 (wordAt 0 (tbl m 0) (grid0.coords t) k)) S1x272x272.size (k0_off2_inb _ (hyps m 0 t k))) (ix3 (0 : Fin 1) o cc) : EReal)
      = m ((0 : Dev nD).tc.loc main_arg2) (ix3 (Cert.Spec.rowOf (m ((0 : Dev nD).tc.loc main_arg1) (ix1 (lab t k)))) o cc) := by
    show iblk m 0 1 t ((Rect.unit (s := S16x272x272) (k0_off2 (wordAt 0 (tbl m 0) (grid0.coords t) k)) S1x272x272.size (k0_off2_inb _ (hyps m 0 t k))).idx (ix3 (0 : Fin 1) o cc)) = _
    rw [wblk_eq, V_w]
    refine congrArg (m ((0 : Dev nD).tc.loc main_arg2)) ?_
    funext a
    refine Fin.ext ?_
    match a with
    | ⟨0, _⟩ =>
      show (k0_off2 (wordAt 0 (tbl m 0) (grid0.coords t) k)) 0 + 1 * 0 = (Cert.Spec.rowOf (m ((0 : Dev nD).tc.loc main_arg1) (ix1 (lab t k)))).val
      rw [row_eq]; omega
    | ⟨1, _⟩ => show 0 + 1 * o.val = o.val; omega
    | ⟨2, _⟩ => show 0 + 1 * cc.val = cc.val; omega
  have hx : (View.ld (iblk m 0 0 t) (Rect.unit (s := S8x272x1024) (k0_off3 k) S1x272x1024.size (k0_off3_inb k)) (ix3 (0 : Fin 1) cc u) : EReal)
      = m ((0 : Dev nD).tc.loc main_arg0) (ix3 (lab t k) cc u) := by
    show iblk m 0 0 t ((Rect.unit (s := S8x272x1024) (k0_off3 k) S1x272x1024.size (k0_off3_inb k)).idx (ix3 (0 : Fin 1) cc u)) = _
    have hk := trip_lt k
    have e : (Rect.unit (s := S8x272x1024) (k0_off3 k) S1x272x1024.size (k0_off3_inb k)).idx (ix3 (0 : Fin 1) cc u) = ix3 (⟨k.val, hk⟩ : Fin 8) cc u := by
      funext a
      refine Fin.ext ?_
      match a with
      | ⟨0, _⟩ => show (k0_off3 k) 0 + 1 * 0 = k.val; rw [k0_off3_eq]; show k.val + 1 * 0 = k.val; omega
      | ⟨1, _⟩ => show (k0_off3 k) 1 + 1 * cc.val = cc.val; rw [k0_off3_eq]; show 0 + 1 * cc.val = cc.val; omega
      | ⟨2, _⟩ => show (k0_off3 k) 2 + 1 * u.val = u.val; rw [k0_off3_eq]; show 0 + 1 * u.val = u.val; omega
    rw [e, xblk_apply, V_main_arg0]
  exact congrArg₂ (fun a b : EReal => a * b) hw hx

/-- A local index of slab k of the block, seen in the block, is (k, o, u). -/
theorem slab_emb (k : Fin k0_t1_loop.trips) (o : Fin 272) (u : Fin 1024) :
    (Rect.unit (s := S8x272x1024) (k0_off3 k) S1x272x1024.size (k0_off3_inb k)).emb (ix3 (0 : Fin 1) o u)
      = ix3 (⟨k.val, trip_lt k⟩ : Fin 8) o u := by
  funext a
  refine Fin.ext ?_
  match a with
  | ⟨0, _⟩ => show (k0_off3 k) 0 + 1 * 0 = k.val; rw [k0_off3_eq]; show k.val + 1 * 0 = k.val; omega
  | ⟨1, _⟩ => show (k0_off3 k) 1 + 1 * o.val = o.val; rw [k0_off3_eq]; show 0 + 1 * o.val = o.val; omega
  | ⟨2, _⟩ => show (k0_off3 k) 2 + 1 * u.val = u.val; rw [k0_off3_eq]; show 0 + 1 * u.val = u.val; omega

/-- WHAT POINT t WRITES BACK is block t of the specification's array: each of the run's pieces is a slab of it. -/
theorem flushed_eq (c : Dev nD) (t : Fin (cfgM m).N) :
    (dats m (hypsH m) 0 c).flushed 2 t = (((cfgM m).win 2).blk t).view.read (Elt Ideal) (Gm m) := by
  show ((cfgM m).win 2).cut (grid0.coords t) ((dats m (hypsH m) 0 c).after 2 t) = _
  rw [after2]
  unfold outsAt outOf
  funext y
  show View.read (Elt Ideal) VO (VO.writes (Elt Ideal) VO.junk
        (kernelRun c (grid0.coords t) (ms0 m t) (hs0 m t) (ms1 m t) (hs1 m t) (ms2 m t) (hs2 m t) (iblk m c 0 t) (iblk m c 1 t) (tbl m 0) (hypsH m c t)).1) y
      = Gm m ((((cfgM m).win 2).blk t).view.emb y)
  refine (View.read_writes_apply_eq_canon VO VO.junk y _ (cover c _ _ _ _ _ _ _ _ _ _ _ y)).trans ?_
  refine View.canon_apply_of_pieces (Val := Elt Ideal) (fun y : S8x272x1024.Idx => (Gm m ((((cfgM m).win 2).blk t).view.emb y) : Elt Ideal .f32)) _ ?_ y (cover c _ _ _ _ _ _ _ _ _ _ _ y)
  intro p hp x
  obtain ⟨k, rfl⟩ := run_piece_cases c _ _ _ _ _ _ _ _ _ _ _ p hp
  obtain ⟨z, o, u, rfl⟩ : ∃ (z : Fin 1) (o : Fin 272) (u : Fin 1024), x = ix3 z o u := ⟨x 0, x 1, x 2, eq_ix3 x⟩
  obtain rfl : z = 0 := Subsingleton.elim _ _
  show slabOf c (grid0.coords t) (iblk m c 0 t) (iblk m c 1 t) (tbl m 0) k (hyps m c t k) (ix3 (0 : Fin 1) o u)
      = Gm m ((((cfgM m).win 2).blk t).view.emb ((Rect.unit (s := S8x272x1024) (k0_off3 k) S1x272x1024.size (k0_off3_inb k)).emb (ix3 (0 : Fin 1) o u)))
  rw [slab_apply, slab_emb, emb2]
  exact (Cert.Spec.G_apply _ _ _ _ _ _).symm

/-- THE RESULT ARRAY after the run is the specification's array. -/
theorem final (c : Dev nD) : (dats m (hypsH m) 0 c).arrAt 2 (cfgM m).N = Gm m :=
  (dats m (hypsH m) 0 c).arrAt_eq_of_cover 2 (Gm m) (fun t _ => flushed_eq m c t) (covered2 m)

/-- The program's run, read: the result array holds the specification's array and the three argument arrays end as
    launched. -/
theorem run : θ_run defs (onTc (τ := τ) (main (F := Ideal))) ⟨m, fun _ => 0, ρ⟩ (fun r => ∀ c : Dev nD,
      r.2.mem ((c.tc : Thread nD τ).loc main_v2) = Gm m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 2).trans (final m c),
      ((h c).1 0).trans (((dats m (hypsH m) 0 c).arrAt_in 0 rfl _).trans ((A_eq m (hypsH m) c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ (hypsH m))

end Cert.KernelIdeal.Hand

end
-- ==== Proof.RefValue.lean ====
/-
  The reference program computes the specification.

  The reference first wraps each subject label, idx'[b] = idx[b] + 16 if idx[b] < 0 (signed) and idx[b] otherwise, then
  gathers the 272 × 272 matrix W[row, :, :] whose row is idx'[b] read as a signed integer and clamped into [0, 15], and
  contracts that matrix's last axis with axis 1 of the sample x[b, :, :]:

      ref[b, o, t] = ∑_{k < 272} W[clamp(idx'[b]), o, k] · x[b, k, t].

  Three steps. (1) The gather read at (b, o, k): on operand axis 0, a collapsed axis named by the start index map, the
  operand index is the start index clamped into [0, 16 − 1] with no offset; on axes 1 and 2, which the start index map
  does not name, it is the result's offset coordinates o and k. (2) Under idx[b] ≥ 0 the signed comparison idx[b] < 0 is
  false, so the wrap leaves the label as it is. (3) Hence the clamped start is min(idx[b], 15), the specification's row,
  and the two sums agree term by term.
-/
import proofs.«417265_j75608604279341_3_alg».proof.Proof.Gen.ReferenceIdeal.Read
import proofs.«417265_j75608604279341_3_alg».proof.Proof.Spec

noncomputable section

namespace Cert.RefValue

open Cert.ReferenceIdeal Cert.ReferenceIdeal.Gen Idealize.ShloMosaic Idealize.ShloMosaic.ValueIdx

/-- The gather's dimension numbers: operand [16,272,272], start indices [128,1], result [128,272,272]. -/
abbrev GD := gather_S16x272x272_S128x1_S128x272x272_12_0_n_n_0_1_1272272

/-- The gather read at (b, o, k): row min(I[b, 0], 15) of the table (the start index read signed, clamped into [0, 15]),
    at the offset coordinates (o, k). -/
theorem gather_row {α : Type} {w : Nat} (W : S16x272x272.Idx → α) (I : IVec S128x1 w) (b : Fin 128) (o k : Fin 272) :
    Host.gather GD W I (ix3 b o k) = W (ix3 ⟨min (I (ix2 b 0)).toInt.toNat 15, by omega⟩ o k) := by
  unfold Host.gather
  congr 1
  funext a
  refine Fin.ext ?_
  match a with
  | ⟨0, _⟩ =>
    show GD.start (ix3 b o k) I 0 + GD.batchCoord (ix3 b o k) 0 + GD.offCoord (ix3 b o k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ GD.startIndexMap from List.mem_singleton.mpr rfl)]
    have hsi : GD.siIdx (ix3 b o k) ⟨List.idxOf (0 : Fin 3) GD.startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    show GD.start (ix3 b o k) I 1 + GD.batchCoord (ix3 b o k) 1 + GD.offCoord (ix3 b o k) 1 = o.val
    rw [GatherDims.batchCoord_eq_zero _ _ _ List.not_mem_nil]
    unfold GatherDims.start GatherDims.offCoord
    rw [dif_neg (show ¬ (1 : Fin 3) ∈ GD.startIndexMap by decide), dif_pos (show (1 : Fin 3) ∈ GD.sKept by decide)]
    simp only [Nat.add_zero, Nat.zero_add]
    rfl
  | ⟨2, _⟩ =>
    show GD.start (ix3 b o k) I 2 + GD.batchCoord (ix3 b o k) 2 + GD.offCoord (ix3 b o k) 2 = k.val
    rw [GatherDims.batchCoord_eq_zero _ _ _ List.not_mem_nil]
    unfold GatherDims.start GatherDims.offCoord
    rw [dif_neg (show ¬ (2 : Fin 3) ∈ GD.startIndexMap by decide), dif_pos (show (2 : Fin 3) ∈ GD.sKept by decide)]
    simp only [Nat.add_zero, Nat.zero_add]
    rfl

/-- Under a nonnegative label the reference's wrap "idx < 0 ? idx + 16 : idx" leaves the label as it is, so the gather's
    start index at b is idx[b]. -/
theorem start_eq (x1 : (⟨S128, .i32⟩ : BufTy).Contents (Elt Ideal)) (b : Fin 128) (h : 0 ≤ (x1 (ix1 b)).toInt) :
    Read.val_main_v5 (F := Ideal) x1 (ix2 b 0) = x1 (ix1 b) := by
  have e5 : Read.idx_main_v5 (ix2 b (0 : Fin 1)) = ix1 b :=
    funext fun a => Fin.ext (by match a with | ⟨0, _⟩ => rfl)
  rw [Read.val_main_v5_apply, e5, Read.val_main_v4_apply, Read.val_main_v1_apply, Read.val_main_v0_apply,
    Read.val_main_c_apply]
  have hc : IntOp.cmpi .slt (x1 (ix1 b)) 0#32 = 0#1 := eq_zero_of_ne_one fun hh => by
    have h1 := IntOp.cmpi_slt.1 hh
    rw [show (0#32 : BitVec 32).toInt = 0 from by decide] at h1
    omega
  rw [hc, select_zero]

/-- The reference's result is the specification's array, when every label is nonnegative. -/
theorem ref_eq_G (x0 : (⟨Cert.ReferenceIdeal.S128x272x1024, .f32⟩ : BufTy).Contents (Elt Ideal)) (x1 : (⟨Cert.ReferenceIdeal.S128, .i32⟩ : BufTy).Contents (Elt Ideal)) (x2 : (⟨Cert.ReferenceIdeal.S16x272x272, .f32⟩ : BufTy).Contents (Elt Ideal))
    (hnn : ∀ b : Fin 128, 0 ≤ (x1 (ValueIdx.ix1 b)).toInt) :
    Cert.ReferenceIdeal.Read.val_main_v7 (F := Ideal) x0 x1 x2 = Cert.Spec.G x0 x1 x2 := by
  funext j
  obtain ⟨b, o, t, rfl⟩ : ∃ (b : Fin 128) (o : Fin 272) (t : Fin 1024), j = ix3 b o t := ⟨j 0, j 1, j 2, eq_ix3 j⟩
  rw [Read.val_main_v7_apply, Cert.Spec.G_apply]
  unfold Cert.Spec.entry
  refine Finset.sum_congr rfl fun k _ => ?_
  have el : Read.lidx_main_v7 (ix3 b o t) k = ix3 b o k :=
    funext fun a => Fin.ext (by match a with | ⟨0, _⟩ => rfl | ⟨1, _⟩ => rfl | ⟨2, _⟩ => rfl)
  have er : Read.ridx_main_v7 (ix3 b o t) k = ix3 b k t :=
    funext fun a => Fin.ext (by match a with | ⟨0, _⟩ => rfl | ⟨1, _⟩ => rfl | ⟨2, _⟩ => rfl)
  rw [el, er]
  unfold Read.val_main_v6
  rw [gather_row]
  have hrow : (⟨min (Read.val_main_v5 (F := Ideal) x1 (ix2 b 0)).toInt.toNat 15, by omega⟩ : Fin 16)
      = Cert.Spec.rowOf (x1 (ix1 b)) := by
    refine Fin.ext ?_
    show min (Read.val_main_v5 (F := Ideal) x1 (ix2 b 0)).toInt.toNat 15 = min (x1 (ix1 b)).toInt.toNat 15
    rw [start_eq x1 b (hnn b)]
  exact congrArg (fun r => x2 (ix3 r o k) * x0 (ix3 b k t)) hrow

end Cert.RefValue
end
-- ==== Proof.PreDecode.lean ====
/-
  What the precondition says of the subject labels.

  The precondition is the conjunction of "every float input is finite" with "every label is at least 0, read as a signed
  integer". The second conjunct is an and-reduction, over the whole label vector, of the signed comparison idx[b] ≥ 0.
  If the whole conjunction is 1, then that reduction is 1, hence every compared entry is 1, hence every label is
  nonnegative as a signed integer.
-/
import proofs.«417265_j75608604279341_3_alg».proof.Pre_finite_inputs
import proofs.«417265_j75608604279341_3_alg».proof.Proof.Gen.Pre_finite_inputs
import Idealize.ShloMosaic.Lib.ReduceAll
import Idealize.ShloMosaic.Lib.ValueIdx

namespace Cert.PreDecode

open Idealize.ShloMosaic

/-- The rank-0 shape has exactly one index. -/
instance : Subsingleton Cert.Pre_finite_inputs.S_.Idx := ⟨fun a b => funext fun d => d.elim0⟩

/-- Under the precondition every subject label is nonnegative as a signed integer. -/
theorem idx_nonneg {F : FTy → Type} [FloatOps F] [Cert.Pre_finite_inputs.Facts]
    (a0 : FVec F Cert.Pre_finite_inputs.S128x272x1024 .f32) (a1 : IVec Cert.Pre_finite_inputs.S128 32)
    (a2 : FVec F Cert.Pre_finite_inputs.S16x272x272 .f32)
    (h : Cert.Pre_finite_inputs.fn (F := F) a0 a1 a2 = fun _ => 1#1) (b : Fin 128) :
    0 ≤ (a1 (ValueIdx.ix1 b)).toInt := by
  have h0 := congrFun h ValueIdx.ix0
  dsimp only [Cert.Pre_finite_inputs.fn] at h0
  -- the outer conjunction: keep its right conjunct, the and-reduction over the labels
  have hr := (IntOp.andi_eq_one.1 h0).2
  -- every entry of the reduced comparison is 1
  have he := Host.reduce_andi_all _ _ _ _ _ hr (ValueIdx.ix1 b)
  -- the comparison at b is the signed idx[b] ≥ 0
  have hc := IntOp.cmpi_sge.1 he
  simpa [broadcastInDim, constantI] using hc

end Cert.PreDecode
-- ==== Proof.lean ====
/-
  The certificate's claim, assembled.

  The kernel multiplies each sample by the 272 × 272 matrix its subject label selects from a table of sixteen; the reference
  gathers those matrices and makes one batched product.  The kernel clips the label into [0, 15] before it selects; the
  reference reads a negative label from the table's end and clamps what is out of range.  For a nonnegative label the two
  selections are the same row — the label itself below 16, row 15 from 16 on —, and the precondition says every label is
  nonnegative.  On the extended reals both programs then compute, at every entry (b, o, u), the sum over c of
  W[row(idx[b]), o, c] · x[b, c, u]: the kernel trip by trip into the slabs of its result blocks, the reference as the
  entries of its batched product over the gathered rows.  Neither side uses that the float inputs are finite: the two sums
  have the same terms.

  The three programs run to their ends with their argument arrays unchanged.  For the two kernel programs that is the
  region's frame after the host operations that clip the labels: the one condition the kernel body assumes — the label word
  a trip reads indexes a row of the table — holds of every clipped word, so it needs nothing of the inputs.  For the reference
  it is its run of host operations.  The idealized kernel is the kernel's own text read on the extended reals: there is
  nothing to preserve.
-/
import proofs.«417265_j75608604279341_3_alg».proof.Defs
import proofs.«417265_j75608604279341_3_alg».proof.Proof.Gen.Kernel
import proofs.«417265_j75608604279341_3_alg».proof.Proof.Gen.KernelIdeal
import proofs.«417265_j75608604279341_3_alg».proof.Proof.Gen.ReferenceIdeal
import proofs.«417265_j75608604279341_3_alg».proof.Proof.Gen.Pre_finite_inputs
import proofs.«417265_j75608604279341_3_alg».proof.Proof.Gen.ReferenceIdeal.Run
import proofs.«417265_j75608604279341_3_alg».proof.Proof.Gen.ReferenceIdeal.Read
import proofs.«417265_j75608604279341_3_alg».proof.Proof.K.Frame
import proofs.«417265_j75608604279341_3_alg».proof.Proof.K.Table
import proofs.«417265_j75608604279341_3_alg».proof.Proof.KI.Frame
import proofs.«417265_j75608604279341_3_alg».proof.Proof.KI.Table
import proofs.«417265_j75608604279341_3_alg».proof.Proof.KI.Value
import proofs.«417265_j75608604279341_3_alg».proof.Proof.RefValue
import proofs.«417265_j75608604279341_3_alg».proof.Proof.PreDecode

noncomputable section

namespace Cert.Proof

open Idealize.ShloMosaic Idealize.ShloMosaic.TcCoe Idealize.SL.Sem

/-- The word-level kernel runs and leaves its arguments: the region's frame, the assumed condition holding of every
    clipped label. -/
theorem frame_k : Cert.frame_Kernel (hKernel := Cert.Kernel.Gen.facts) (hPre_finite_inputs := Cert.Pre_finite_inputs.Gen.facts) :=
  fun m ρ _ => Cert.Kernel.Hand.frame m ρ (Cert.Kernel.Hand.hyps m)

/-- The idealized kernel likewise. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ (Cert.KernelIdeal.Hand.hyps m)

/-- The reference is a line of host operations: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the specification's array of the (shared) arguments: the kernel by its run read
    entry by entry, the reference by its product over the gathered rows, the labels nonnegative by the precondition. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun _ => Cert.KernelIdeal.Hand.Gm m, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v7_eq, (hagree 0).1, (hagree 0).2.1, (hagree 0).2.2]
  exact Cert.RefValue.ref_eq_G _ _ _ (fun b => Cert.PreDecode.idx_nonneg (F := Ideal) _ _ _ (hpre 0) b)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
